-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x4096 : Shape := ⟨3, ![8, 2048, 4096]⟩
abbrev S16x4096x4096 : Shape := ⟨3, ![16, 4096, 4096]⟩
abbrev S8 : Shape := ⟨1, ![8]⟩
abbrev S_ : Shape := ⟨0, ![]⟩

class Facts : Prop where
  bcast_S_S8x2048x4096 : S_.BroadcastsInDim S8x2048x4096 (![] : Fin 0 → Fin S8x2048x4096.rank)
  reducesTo_S8x2048x4096_S_d0_1_2 : S8x2048x4096.ReducesTo [0, 1, 2] S_
  h_S_ : 0 < S_.numel
  bcast_S_S16x4096x4096 : S_.BroadcastsInDim S16x4096x4096 (![] : Fin 0 → Fin S16x4096x4096.rank)
  reducesTo_S16x4096x4096_S_d0_1_2 : S16x4096x4096.ReducesTo [0, 1, 2] S_
  bcast_S_S8 : S_.BroadcastsInDim S8 (![] : Fin 0 → Fin S8.rank)
  reducesTo_S8_S_d0 : S8.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S8x2048x4096 .f32) (main_arg1 : FVec F S16x4096x4096 .f32) (main_arg2 : IVec S8 32) : IVec S_ 1 :=
  let main_v0 : FVec F S8x2048x4096 .f32 := Host.absf main_arg0
  let main_cst : FVec F S_ .f32 := constant S_ .f32 0x7F800000#32
  let main_v1 : FVec F S8x2048x4096 .f32 := broadcastInDim S8x2048x4096 ![] bcast_S_S8x2048x4096 main_cst
  let main_v2 : IVec S8x2048x4096 1 := cmpf .olt main_v0 main_v1
  let main_c : IVec S_ 1 := constantI S_ 1 1#1
  let main_v3 : IVec S_ 1 := (fun x v => Host.reduce IntOp.andi x v reducesTo_S8x2048x4096_S_d0_1_2 h_S_) main_v2 main_c
  let main_v4 : FVec F S16x4096x4096 .f32 := Host.absf main_arg1
  let main_cst_0 : FVec F S_ .f32 := constant S_ .f32 0x7F800000#32
  let main_v5 : FVec F S16x4096x4096 .f32 := broadcastInDim S16x4096x4096 ![] bcast_S_S16x4096x4096 main_cst_0
  let main_v6 : IVec S16x4096x4096 1 := cmpf .olt main_v4 main_v5
  let main_c_1 : IVec S_ 1 := constantI S_ 1 1#1
  let main_v7 : IVec S_ 1 := (fun x v => Host.reduce IntOp.andi x v reducesTo_S16x4096x4096_S_d0_1_2 h_S_) main_v6 main_c_1
  let main_v8 : IVec S_ 1 := andi main_v3 main_v7
  let main_c_2 : IVec S_ 32 := constantI S_ 32 0#32
  let main_v9 : IVec S8 32 := broadcastInDim S8 ![] bcast_S_S8 main_c_2
  let main_v10 : IVec S8 1 := cmpi .sge main_arg2 main_v9
  let main_c_3 : IVec S_ 1 := constantI S_ 1 1#1
  let main_v11 : IVec S_ 1 := (fun x v => Host.reduce IntOp.andi x v reducesTo_S8_S_d0 h_S_) main_v10 main_c_3
  let main_v12 : IVec S_ 1 := andi main_v8 main_v11
  let main_c_4 : IVec S_ 32 := constantI S_ 32 16#32
  let main_v13 : IVec S8 32 := broadcastInDim S8 ![] bcast_S_S8 main_c_4
  let main_v14 : IVec S8 1 := cmpi .slt main_arg2 main_v13
  let main_c_5 : IVec S_ 1 := constantI S_ 1 1#1
  let main_v15 : IVec S_ 1 := (fun x v => Host.reduce IntOp.andi x v reducesTo_S8_S_d0 h_S_) main_v14 main_c_5
  fn_part1 (F := F) main_v12 main_v15
-- ==== Kernel.lean ====
abbrev S8x2048x4096 : Shape := ⟨3, ![8, 2048, 4096]⟩
abbrev S16x4096x4096 : Shape := ⟨3, ![16, 4096, 4096]⟩
abbrev S8 : Shape := ⟨1, ![8]⟩
abbrev S_ : Shape := ⟨0, ![]⟩
abbrev S1x2048x1024 : Shape := ⟨3, ![1, 2048, 1024]⟩
abbrev S1x1024x1024 : Shape := ⟨3, ![1, 1024, 1024]⟩
abbrev S1 : Shape := ⟨1, ![1]⟩
abbrev S2048x1024 : Shape := ⟨2, ![2048, 1024]⟩
abbrev S1024x1024 : Shape := ⟨2, ![1024, 1024]⟩

abbrev nBuf : Space → Nat
  | .hbm => 11
  | .vmem => 6
  | .smem => 1
  | _ => 0

abbrev bufTy : (tb : Table) → Fin (tcTables nBuf tb) → BufTy
  | .hbm, ⟨0, _⟩ => ⟨S8x2048x4096, .f32⟩
  | .hbm, ⟨1, _⟩ => ⟨S16x4096x4096, .f32⟩
  | .hbm, ⟨2, _⟩ => ⟨S8, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S8, .i32⟩
  | .hbm, ⟨7, _⟩ => ⟨S8, .i32⟩
  | .hbm, ⟨8, _⟩ => ⟨S_, .i32⟩
  | .hbm, ⟨9, _⟩ => ⟨S8, .i32⟩
  | .hbm, ⟨10, _⟩ => ⟨S8x2048x4096, .f32⟩
  | .local _ .vmem, ⟨0, _⟩ => ⟨S1x2048x1024, .f32⟩
  | .local _ .vmem, ⟨1, _⟩ => ⟨S1x2048x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x2048x1024, .f32⟩
  | .local _ .vmem, ⟨5, _⟩ => ⟨S1x2048x1024, .f32⟩
  | .local _ .smem, ⟨0, _⟩ => ⟨S8, .i32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 4], ![false, false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg2 : BitVec 32 := BitVec.ofNat 32 (i 2).val
  let c0_i32 : BitVec 32 := 0#32
  let v7 : BitVec 1 := Scalar.cmpi .eq arg2 c0_i32
  let v8 : BitVec 32 := Scalar.extui v7
  let c0_i32_5 : BitVec 32 := 0#32
  let v9 : BitVec 1 := Scalar.cmpi .ne v8 c0_i32_5
  v9

def k0_cond2 (i : grid0.Coords) : BitVec 1 :=
  let arg2 : BitVec 32 := BitVec.ofNat 32 (i 2).val
  let c0_i32_6 : BitVec 32 := 0#32
  let v10 : BitVec 1 := Scalar.cmpi .ne arg2 c0_i32_6
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_1 (k0_off1_inb : ∀ i : grid0.Coords, ∀ a, (k0_off1 i) a + S1.size a ≤ S8.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg0
  let v1 : BitVec 32 := pf.at 0 (Rect.unit (s := S8) ![v0.toNat] S1.size (k0_off1_inb i)) numel1_S1
  let c0_i32 : BitVec 32 := 0#32
  ![v1.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  bcast_S_S8 : S_.BroadcastsInDim S8 (![] : Fin 0 → Fin S8.rank)
  numel1_S1 : S1.numel = 1
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  bitsLt_bf16_f32 : FTy.bits .bf16 < FTy.bits .f32
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S2048x1024_S1x2048x1024 : S2048x1024.ShapeCasts S1x2048x1024
  dot_S2048x1024_S1024x1024_S2048x1024_1_1_0_0_n_n_wf : DotDims.WF S2048x1024 S1024x1024 S2048x1024 [1] [1] [0] [0] [] []
  hrank0 : 0 < grid0.rank
  k0_off1_inb : ∀ i : grid0.Coords, ∀ a, (k0_off1 i) a + S1.size a ≤ S8.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S8x2048x4096.size a
  hwx0_0 : ∀ i : grid0.Coords, EltTy.bits .f32 = 32 ∨ (Rect.block (s := S8x2048x4096) S1x2048x1024.size (cc0_transform_0 i) (hinb0_0 i)).WholeWords (EltTy.packing .f32)
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x1024.size a ≤ S8x2048x4096.size a
  hwx0_2 : ∀ i : grid0.Coords, EltTy.bits .f32 = 32 ∨ (Rect.block (s := S8x2048x4096) S1x2048x1024.size (cc0_transform_2 i) (hinb0_2 i)).WholeWords (EltTy.packing .f32)

variable [Facts₀]

def dot_S2048x1024_S1024x1024_S2048x1024_1_1_0_0_n_n : DotDims S2048x1024 S1024x1024 S2048x1024 where
  lhsContracting := [1]
  rhsContracting := [1]
  lhsNonContracting := [0]
  rhsNonContracting := [0]
  lhsBatch := []
  rhsBatch := []
  wf := dot_S2048x1024_S1024x1024_S2048x1024_1_1_0_0_n_n_wf

abbrev spec0_0 : Pipeline.WinSpec sig grid0.rank :=
  Pipeline.WinSpec.ofSpec (Memref.whole main_arg0) S1x2048x1024.size reads0_0 false false 2 stage0_0 sem0_0 nbuf0_0 hstage0_0

abbrev spec0_1 : Pipeline.WinSpec sig grid0.rank :=
  Pipeline.WinSpec.ofSpec (Memref.whole main_arg1) S1x1024x1024.size reads0_1 false false 2 stage0_1 sem0_1 nbuf0_1 hstage0_1

abbrev spec0_2 : Pipeline.WinSpec sig grid0.rank :=
  Pipeline.WinSpec.ofSpec (Memref.whole main_v1) S1x2048x1024.size reads0_2 true false 2 stage0_2 sem0_2 nbuf0_2 hstage0_2

abbrev spec0 : Fin 3 → Pipeline.WinSpec sig grid0.rank := fun | 0 => spec0_0 | 1 => spec0_1 | 2 => spec0_2 | ⟨_ + 3, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | ⟨_ + 3, h⟩ => absurd h (Nat.not_lt.2 (Nat.le_add_left _ _))
abbrev ix0 (pf : pre0.Contents (Elt F)) : (w : Fin 3) → grid0.Coords → Fin (spec0 w).shape.rank → Nat := fun | 0 => cc0_transform_0 | 1 => cc0_transform_1 k0_off1_inb numel1_S1 pf | 2 => cc0_transform_2 | ⟨_ + 3, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 pf | 2 => hreads0_2 | ⟨_ + 3, h⟩ => absurd h (Nat.not_lt.2 (Nat.le_add_left _ _))
def ok0 (pf : pre0.Contents (Elt F)) : Prop :=
  (∀ i : grid0.Coords, ∃ h : (∀ a, (cc0_transform_1 k0_off1_inb numel1_S1 pf i a + 1) * S1x1024x1024.size a ≤ S16x4096x4096.size a), EltTy.bits .f32 = 32 ∨ (Rect.block (s := S16x4096x4096) S1x1024x1024.size (cc0_transform_1 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => fun i a => (hok i).elim fun h _ => h a | 2 => hinb0_2 | ⟨_ + 3, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => fun i => (hok i).elim fun _ h => h | 2 => hwx0_2 | ⟨_ + 3, h⟩ => absurd h (Nat.not_lt.2 (Nat.le_add_left _ _))
abbrev idle0 : Fin 3 → grid0.Coords → Bool := fun | 0 => fun _ => false | 1 => fun _ => false | 2 => fun i => !(k0_cond1 i == 1#1) && !(k0_cond2 i == 1#1) | ⟨_ + 3, h⟩ => absurd h (Nat.not_lt.2 (Nat.le_add_left _ _))

class Facts : Prop extends Facts₀ where
  harr0 : ∀ w, (spec0 w).arr.IsWhole

variable [Facts]
-- ==== ReferenceIdeal.lean ====
abbrev S8x2048x4096 : Shape := ⟨3, ![8, 2048, 4096]⟩
abbrev S16x4096x4096 : Shape := ⟨3, ![16, 4096, 4096]⟩
abbrev S8 : Shape := ⟨1, ![8]⟩
abbrev S_ : Shape := ⟨0, ![]⟩
abbrev S8x1 : Shape := ⟨2, ![8, 1]⟩
abbrev S8x4096x4096 : Shape := ⟨3, ![8, 4096, 4096]⟩

abbrev nBuf : Space → Nat
  | .hbm => 13
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S16x4096x4096, .f32⟩
  | .hbm, ⟨2, _⟩ => ⟨S8, .i32⟩
  | .hbm, ⟨3, _⟩ => ⟨S_, .i32⟩
  | .hbm, ⟨4, _⟩ => ⟨S8, .i32⟩
  | .hbm, ⟨5, _⟩ => ⟨S8, .i1⟩
  | .hbm, ⟨6, _⟩ => ⟨S_, .i32⟩
  | .hbm, ⟨7, _⟩ => ⟨S8, .i32⟩
  | .hbm, ⟨8, _⟩ => ⟨S8, .i32⟩
  | .hbm, ⟨9, _⟩ => ⟨S8, .i32⟩
  | .hbm, ⟨10, _⟩ => ⟨S8x1, .i32⟩
  | .hbm, ⟨11, _⟩ => ⟨S8x4096x4096, .f32⟩
  | .hbm, ⟨12, _⟩ => ⟨S8x2048x4096, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S8_S8x1_0 : S8.BroadcastsInDim S8x1 (![0] : Fin 1 → Fin S8x1.rank)
  gather_S16x4096x4096_S8x1_S8x4096x4096_12_0_n_n_0_1_140964096_wf : GatherDims.WF S16x4096x4096 S8x1 S8x4096x4096 [1, 2] [0] [] [0] [] 1 ![1, 4096, 4096]
  dot_S8x2048x4096_S8x4096x4096_S8x2048x4096_2_2_1_1_0_0_wf : DotDims.WF S8x2048x4096 S8x4096x4096 S8x2048x4096 [2] [2] [1] [1] [0] [0]

variable [Facts₀]

def gather_S16x4096x4096_S8x1_S8x4096x4096_12_0_n_n_0_1_140964096 : GatherDims S16x4096x4096 S8x1 S8x4096x4096 where
  offsetDims := [1, 2]
  collapsedSliceDims := [0]
  operandBatchingDims := []
  startIndicesBatchingDims := []
  startIndexMap := [0]
  indexVectorDim := 1
  sliceSizes := ![1, 4096, 4096]
  wf := gather_S16x4096x4096_S8x1_S8x4096x4096_12_0_n_n_0_1_140964096_wf
def dot_S8x2048x4096_S8x4096x4096_S8x2048x4096_2_2_1_1_0_0 : DotDims S8x2048x4096 S8x4096x4096 S8x2048x4096 where
  lhsContracting := [2]
  rhsContracting := [2]
  lhsNonContracting := [1]
  rhsNonContracting := [1]
  lhsBatch := [0]
  rhsBatch := [0]
  wf := dot_S8x2048x4096_S8x4096x4096_S8x2048x4096_2_2_1_1_0_0_wf

class Facts : Prop extends Facts₀ where

variable [Facts]
-- ==== Proof.KbKit.lean ====
/-
  The program up to its one region, and the table the region reads.

  Before the region the host clips the eight adapter ids into the table's sixteen rows: `min 15 (max 0 id)`,
  signed. Whatever the ids are, the clipped word is one of 0 … 15, so the block of the weight table the pipeline
  fetches at a grid point — (clipped id of the sample, output tile, contraction tile) — always lies inside the
  [16, 4096, 4096] table: the pipeline's side condition of the table holds for every launch memory.
-/
import proofs.«401067_j34007551050174_3_alg».proof.Proof.Gen.Kernel.Launch
import proofs.«401067_j34007551050174_3_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- The buffers of core `c` when the region is entered: the launch contents with the two constants and the clipped ids written. -/
abbrev V (c : Dev nD) (b : Ref sig .tc) : Buf (Elt F) ((c : Thread nD τ).loc b) :=
  StableHlo.after (List.flatten [hostOps0, hostOps0_1]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor

/-- The program is the two stretches of host operations and then the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1] (by simp only [List.Forall]; exact ⟨hostOps0_sub, hostOps0_1_sub⟩)
    (by simp only [List.Forall]; exact ⟨hostOps0_fresh, hostOps0_1_fresh⟩) main_chain

/-- No host operation writes an argument array: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))

/-! ## The table of clipped ids -/

/-- The table's contents when the region is entered (the program runs on one device). -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl

/-- The ids clipped into the sixteen rows, as the host computes them. -/
def clipped (ids : IVec S8 32) : IVec S8 32 :=
  minsi (broadcastInDim S8 ![] bcast_S_S8 (constantI S_ 32 15#32)) (maxsi (broadcastInDim S8 ![] bcast_S_S8 (constantI S_ 32 0#32)) ids)

/-- The table holds the clipped ids. -/
theorem tbl_eq : (tbl m 0 : IVec S8 32) = clipped (m (((0 : Dev nD) : Thread nD τ).loc main_arg2)) := by
  unfold tbl clipped
  show V m 0 main_v0 = _
  dsimp only [V]
  simp only [hostOps0, hostOps0_1, List.flatten_cons, List.flatten_nil, List.append_nil, List.cons_append, List.nil_append]
  after_results
  rfl

/-- The clip always lands on one of the sixteen rows … -/
theorem clip_lt (v : BitVec 32) : (IntOp.minsi 15#32 (IntOp.maxsi 0#32 v)).toNat < 16 := by
  unfold IntOp.minsi IntOp.maxsi
  have h15 : (15#32 : BitVec 32).toInt = 15 := by decide
  have h0 : (0#32 : BitVec 32).toInt = 0 := by decide
  by_cases h1 : v.slt 0#32 = true
  · rw [if_pos h1]
    have : (15#32 : BitVec 32).slt 0#32 = false := by decide
    rw [this]; decide
  · rw [if_neg h1]
    by_cases h2 : (15#32 : BitVec 32).slt v = true
    · rw [if_pos h2]; decide
    · rw [if_neg h2]
      simp only [BitVec.slt, decide_eq_true_eq, h15, h0] at h1 h2
      have h32 := v.isLt
      unfold BitVec.toInt at h1 h2
      split at h1 <;> omega
/-- … and leaves an id that already is one of them alone. -/
theorem clip_id (v : BitVec 32) (h : v.toNat < 16) : IntOp.minsi 15#32 (IntOp.maxsi 0#32 v) = v := by
  unfold IntOp.minsi IntOp.maxsi
  have h15 : (15#32 : BitVec 32).toInt = 15 := by decide
  have h0 : (0#32 : BitVec 32).toInt = 0 := by decide
  have hv : v.toInt = v.toNat := by unfold BitVec.toInt; rw [if_pos (by omega)]
  have h1 : ¬ v.slt 0#32 = true := by simp only [BitVec.slt, decide_eq_true_eq, h0, hv]; omega
  rw [if_neg h1]
  have h2 : ¬ (15#32 : BitVec 32).slt v = true := by simp only [BitVec.slt, decide_eq_true_eq, h15, hv]; omega
  rw [if_neg h2]

/-- Every word of the table is one of the sixteen rows. -/
theorem tbl_lt (x : S8.Idx) : ((tbl m 0 : IVec S8 32) x).toNat < 16 := by
  rw [tbl_eq]; exact clip_lt _

/-- The pipeline's side condition of the table: the weight block fetched at any grid point lies inside the table. -/
theorem ok : ok0 (F := F) (tbl m) := by
  intro i
  obtain ⟨w, hw, e⟩ : ∃ w : BitVec 32, w.toNat < 16 ∧ cc0_transform_1 k0_off1_inb numel1_S1 (tbl m) i
      = ![w.toNat, (BitVec.ofNat 32 (i 1).val).toNat, (BitVec.ofNat 32 (i 2).val).toNat] := ⟨_, tbl_lt m _, rfl⟩
  refine ⟨fun a => ?_, Or.inl rfl⟩
  rw [e]
  have h1 : (i 1).val < 4 := (i 1).isLt
  have h2 : (i 2).val < 4 := (i 2).isLt
  fin_cases a <;> simp [S1x1024x1024, S16x4096x4096] <;> omega

/-- The table as admissible contents, and the pipeline at them. -/
abbrev adm : (pcfg0 (F := F)).Adm := ⟨tbl m, ok m⟩
abbrev cfgM : Pipeline.Cfg sig Λ₀ := cfg0 (adm m)

/-! ## The windows' blocks -/

/-- Window `w`'s block at point `t`, read off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- The sample tile's buffer holds its block at every point, fetched there or not (the body only reads it). -/
theorem before_x {c : Dev nD} (dat : Dat τ (Elt F) Unit ℕ (UR sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- So does the adapter tile's. -/
theorem before_w {c : Dev nD} (dat : Dat τ (Elt F) Unit ℕ (UR sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

theorem frame_of (dats : (p : Fin 1) → (c : Dev nD) → Dat τ (Elt F) Unit ℕ (UR sig nD τ) ℕ ((Pipeline.pin pcfgs fun _ => adm m) p) c)
    (hA : ∀ c w, (dats 0 c).A w = V m c (Pipeline.arrRef spec0 w))
    (h : θ_run defs (onTc (τ := τ) (main (F := F))) (s₀ m ρ) (Pipeline.FramePost (Pipeline.pin pcfgs fun _ => adm m) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (by decide : main_arg2 ∈ Pipeline.restRefs sig spec0)).trans (V_main_arg2 m c)⟩) h

/-! ## Where the body resets and where it accumulates -/

/-- The reset branch is taken exactly at the first contraction tile of an output tile … -/
theorem hcond1 : ∀ t : Fin (cfgM m).N, k0_cond1 (grid0.coords t) = 1#1 ↔ t.val % 4 = 0 :=
  (by decide +kernel : ∀ t : Fin grid0.N, k0_cond1 (grid0.coords t) = 1#1 ↔ t.val % 4 = 0)
/-- … and the accumulating branch at the other three. -/
theorem hcond2 : ∀ t : Fin (cfgM m).N, k0_cond2 (grid0.coords t) = 1#1 ↔ ¬ t.val % 4 = 0 :=
  (by decide +kernel : ∀ t : Fin grid0.N, k0_cond2 (grid0.coords t) = 1#1 ↔ ¬ t.val % 4 = 0)
/-- The output tile is written back after its fourth contraction tile only. -/
theorem flush_out (a : (pcfg0 (F := F)).Adm) : ∀ t : Fin (cfg0 a).N, ((cfg0 a).win 2).flush t = true ↔ t.val % 4 = 3 :=
  (by decide +kernel : ∀ t : Fin grid0.N, Pipeline.Window.flushOf grid0 true cc0_transform_2 t = true ↔ t.val % 4 = 3)

/-! ## The body as the pipeline calls it -/

abbrev msx (t : Fin (cfgM m).N) : Memref sig .tc .vmem S1x2048x1024 .f32 := spec0_0.stage ((cfgM m).slots t 0)
abbrev hsx (t : Fin (cfgM m).N) : (msx m t).IsWhole := hstage0_0 (((cfgM m).slots t 0).cast nbuf0_0)
abbrev msw (t : Fin (cfgM m).N) : Memref sig .tc .vmem S1x1024x1024 .f32 := spec0_1.stage ((cfgM m).slots t 1)
abbrev hsw (t : Fin (cfgM m).N) : (msw m t).IsWhole := hstage0_1 (((cfgM m).slots t 1).cast nbuf0_1)
abbrev mso (t : Fin (cfgM m).N) : Memref sig .tc .vmem S1x2048x1024 .f32 := spec0_2.stage ((cfgM m).slots t 2)
abbrev hso (t : Fin (cfgM m).N) : (mso m t).IsWhole := hstage0_2 (((cfgM m).slots t 2).cast nbuf0_2)

/-- The kernel body at point `t`, on what the pipeline calls it with. -/
abbrev bodyAt (t : Fin (cfgM m).N) : Prog (TpuEff nD τ sig (Elt F) Λ₀ .tc) PUnit :=
  cc0__lora_matmul_kernel (grid0.coords t) (Memref.whole main_v0) (Memref.isWhole_whole _) (msx m t) (hsx m t) (msw m t) (hsw m t) (mso m t) (hso m t)

end Cert.Kernel.Hand

end
-- ==== Proof.KbData.lean ====
/-
  What each staging buffer holds after the body, point by point.

  The grid runs samples × output tiles × contraction tiles, the contraction tile fastest. The two input buffers hold
  their blocks. The output buffer is an accumulator: after the first contraction tile of an output tile it holds
  that tile's product, after each later one what it held before plus the new product; it is written back after the
  fourth.
-/
import proofs.«401067_j34007551050174_3_alg».proof.Proof.Gen.Kernel.Launch
import proofs.«401067_j34007551050174_3_alg».proof.Proof.Gen.Kernel.Skeleton
import proofs.«401067_j34007551050174_3_alg».proof.Proof.KbKit
import Idealize.ShloMosaic.Lib.ValueIdx
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The accumulator after position `n` of the grid. -/
def accAt (c : Dev nD) : (n : ℕ) → n < (cfgM m).N → Vec F S1x2048x1024 .f32
  | 0, hn => k0_pay2 (iblk m c 0 ⟨0, hn⟩) (iblk m c 1 ⟨0, hn⟩)
  | n + 1, hn =>
    if (n + 1) % 4 = 0 then k0_pay2 (iblk m c 0 ⟨n + 1, hn⟩) (iblk m c 1 ⟨n + 1, hn⟩)
    else k0_pay3 (iblk m c 0 ⟨n + 1, hn⟩) (iblk m c 1 ⟨n + 1, hn⟩) (accAt c n (Nat.lt_of_succ_lt hn))

/-- At the first contraction tile the accumulator is the tile product. -/
theorem accAt_reset (c : Dev nD) (t : Fin (cfgM m).N) (h0 : t.val % 4 = 0) :
    accAt m c t.val t.isLt = k0_pay2 (iblk m c 0 t) (iblk m c 1 t) := by
  obtain ⟨n, hn⟩ := t
  cases n with
  | zero => rfl
  | succ n => exact (if_pos h0).trans rfl

/-- At a later contraction tile it is what the point before left plus the tile product. -/
theorem accAt_acc (c : Dev nD) (t : Fin (cfgM m).N) (h0 : ¬t.val % 4 = 0) :
    accAt m c t.val t.isLt = k0_pay3 (iblk m c 0 t) (iblk m c 1 t) (accAt m c (t.val - 1) (Nat.lt_of_le_of_lt (Nat.sub_le _ _) t.isLt)) := by
  obtain ⟨n, hn⟩ := t
  cases n with
  | zero => exact absurd (Nat.zero_mod _) h0
  | succ n => exact (if_neg h0).trans rfl

/-- The pipeline's proof data on core `c`. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => accAt m c t.val t.isLt
  Φ _ := iprop(Pipeline.ΦA spec0 c ∗ Pipeline.ΦT pre0 (tbl m) c)
  q _ := fullShare
  owed _ := 0

theorem A_eq (c : Dev nD) (w : Fin (cfgM m).W) : (dats m 0 c).A w = V m c (Pipeline.arrRef spec0 w) := by
  dsimp only [dats]

theorem after_x (c : Dev nD) (t : Fin (cfgM m).N) : (dats m 0 c).after 0 t = iblk m c 0 t := by dsimp only [dats]; rfl
theorem after_w (c : Dev nD) (t : Fin (cfgM m).N) : (dats m 0 c).after 1 t = iblk m c 1 t := by dsimp only [dats]; rfl
theorem after_out (c : Dev nD) (t : Fin (cfgM m).N) : (dats m 0 c).after 2 t = accAt m c t.val t.isLt := by dsimp only [dats]; rfl

/-- The input buffers hold their blocks when the body runs. -/
theorem before_x' (c : Dev nD) (t : Fin (cfgM m).N) (d) : (dats m 0 c).before 0 t d = iblk m c 0 t :=
  before_x m (dats m 0 c) (A_eq m c 0) (after_x m c) t d
theorem before_w' (c : Dev nD) (t : Fin (cfgM m).N) (d) : (dats m 0 c).before 1 t d = iblk m c 1 t :=
  before_w m (dats m 0 c) (A_eq m c 1) (after_w m c) t d

/-- The body stores into the output buffer at every point: one of its two branches is taken. -/
theorem out_live (i : (cfgM m).grid.Coords) : (cfgM m).idle 2 i = false := by
  show (!(k0_cond1 i == 1#1) && !(k0_cond2 i == 1#1)) = false
  unfold k0_cond1 k0_cond2
  have h : ∀ k : Fin 4, (!(Scalar.cmpi .ne (Scalar.extui (Scalar.cmpi .eq (BitVec.ofNat 32 k.val) 0#32)) 0#32 == 1#1)
      && !(Scalar.cmpi .ne (Scalar.extui (Scalar.cmpi .ne (BitVec.ofNat 32 k.val) 0#32)) 0#32 == 1#1)) = false := by decide
  exact h (i 2)

/-- At a later contraction tile the output buffer holds what the point before left: it was not written back between. -/
theorem before_out (c : Dev nD) (t : Fin (cfgM m).N) (h0 : ¬t.val % 4 = 0) (d) :
    (dats m 0 c).before 2 t d = accAt m c (t.val - 1) (Nat.lt_of_le_of_lt (Nat.sub_le _ _) t.isLt) := by
  rw [Dat.before_out_kept _ 2 rfl t (by omega) (Bool.eq_false_iff.mpr fun h => by have := (flush_out (adm m) _).mp h; dsimp only at this; omega)
    (fun i => out_live m i) (fun _ _ => rfl)]
  dsimp only [dats]; rfl

/-! ## Names for the value of the result -/

/-- The adapter row the table names for sample `b`. -/
def krow (b : Fin 8) : Fin 16 := ⟨((tbl m 0 : IVec S8 32) (ValueIdx.ix1 b)).toNat, tbl_lt m _⟩

/-- The grid point of sample `b`, output tile `n`, contraction tile `kt`. -/
def pt (b : Fin 8) (n : Fin 4) (kt : Fin 4) : Fin (cfgM m).N :=
  ⟨(b.val * 4 + n.val) * 4 + kt.val, by
    have := b.isLt; have := n.isLt; have := kt.isLt
    show _ < grid0.N
    rw [N_0]; omega⟩

end Cert.Kernel.Hand

end
-- ==== Proof.KbBody.lean ====
/-
  The kernel body run once on arbitrary staging buffers, in its two cases.

  At the first contraction tile of an output tile the body stores the tile product into the output buffer (whatever
  that buffer held); at the other three it loads the buffer, adds the tile product and stores the sum back. The two
  input buffers are only read.
-/
import proofs.«401067_j34007551050174_3_alg».proof.Proof.Gen.Kernel.Launch
import proofs.«401067_j34007551050174_3_alg».proof.Proof.Gen.Kernel.Skeleton
import proofs.«401067_j34007551050174_3_alg».proof.Proof.KbKit
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The offsets of a whole-block access are all zero. -/
theorem hz3 : (![0, 0, 0] : Fin 3 → Nat) = fun _ => 0 := by funext a; fin_cases a <;> rfl

/-- The first contraction tile: the output buffer ends at the tile product. -/
theorem run_reset (c : Dev nD) (i : grid0.Coords) (arg3 : Memref sig .tc .smem S8 .i32) (harg3 : arg3.IsWhole)
    (arg4 : Memref sig .tc .vmem S1x2048x1024 .f32) (harg4 : arg4.IsWhole) (arg5 : Memref sig .tc .vmem S1x1024x1024 .f32) (harg5 : arg5.IsWhole)
    (arg6 : Memref sig .tc .vmem S1x2048x1024 .f32) (harg6 : arg6.IsWhole)
    (hc1 : k0_cond1 i = 1#1) (hc2 : ¬ k0_cond2 i = 1#1) (x0 : Vec F S1x2048x1024 .f32) (x1 : Vec F S1x1024x1024 .f32)
    (E : Set ℕ) (K : PUnit → sProp 𝕄) :
    iprop(owns (c : Thread nD τ) arg4 fullShare x0 ∗ owns (c : Thread nD τ) arg5 fullShare x1 ∗ (∃ d, owns (c : Thread nD τ) arg6 fullShare d)
        ∗ (iprop(owns (c : Thread nD τ) arg4 fullShare x0 ∗ owns (c : Thread nD τ) arg5 fullShare x1
            ∗ owns (c : Thread nD τ) arg6 fullShare (k0_pay2 x0 x1)) -∗ K ⟨⟩))
      ⊢ wp frame (wpE (defs₀ (F := F)) Variants.none c none) E (cc0__lora_matmul_kernel i arg3 harg3 arg4 harg4 arg5 harg5 arg6 harg6) K := by
  simp only [cc0__lora_matmul_kernel_eq_skeleton]; unfold cc0__lora_matmul_kernel_skel
  unfold owns
  iintro ⟨⟨%f0, %hf0, H0⟩, ⟨%f1, %hf1, H1⟩, ⟨%d2, %f2, -, H2⟩, Hk⟩
  obtain rfl := harg4.eq_unread hf0
  obtain rfl := harg5.eq_unread hf1
  sl_exec (disch := first | exact hc1 | exact hc2)
  sl_step
  iapply Hk
  isplitl [H0]
  · iexists _; isplitr
    · ipureintro; exact harg4.read_unread _
    iexact H0
  isplitl [H1]
  · iexists _; isplitr
    · ipureintro; exact harg5.read_unread _
    iexact H1
  iexists _; isplitr
  swap; · iexact H2
  ipureintro
  rw [View.read_writes_eq_canon _ _ _ (fun y => ⟨_, List.mem_singleton_self _, View.mem_set_unit_zero hz3 inb_S1x2048x1024_S1x2048x1024_0_0_0 y⟩)]
  rw [View.canon_unit_zero hz3]
  simp only [View.readAt_eq_ld, harg4.read_unread, harg5.read_unread, View.ld_unit_zero (S := S1x2048x1024) hz3, View.ld_unit_zero (S := S1x1024x1024) hz3]

/-- A later contraction tile: the output buffer, found at `acc`, ends at `acc` plus the tile product. -/
theorem run_acc (c : Dev nD) (i : grid0.Coords) (arg3 : Memref sig .tc .smem S8 .i32) (harg3 : arg3.IsWhole)
    (arg4 : Memref sig .tc .vmem S1x2048x1024 .f32) (harg4 : arg4.IsWhole) (arg5 : Memref sig .tc .vmem S1x1024x1024 .f32) (harg5 : arg5.IsWhole)
    (arg6 : Memref sig .tc .vmem S1x2048x1024 .f32) (harg6 : arg6.IsWhole)
    (hc1 : ¬ k0_cond1 i = 1#1) (hc2 : k0_cond2 i = 1#1) (x0 : Vec F S1x2048x1024 .f32) (x1 : Vec F S1x1024x1024 .f32) (acc : Vec F S1x2048x1024 .f32)
    (E : Set ℕ) (K : PUnit → sProp 𝕄) :
    iprop(owns (c : Thread nD τ) arg4 fullShare x0 ∗ owns (c : Thread nD τ) arg5 fullShare x1 ∗ owns (c : Thread nD τ) arg6 fullShare acc
        ∗ (iprop(owns (c : Thread nD τ) arg4 fullShare x0 ∗ owns (c : Thread nD τ) arg5 fullShare x1
            ∗ owns (c : Thread nD τ) arg6 fullShare (k0_pay3 x0 x1 acc)) -∗ K ⟨⟩))
      ⊢ wp frame (wpE (defs₀ (F := F)) Variants.none c none) E (cc0__lora_matmul_kernel i arg3 harg3 arg4 harg4 arg5 harg5 arg6 harg6) K := by
  simp only [cc0__lora_matmul_kernel_eq_skeleton]; unfold cc0__lora_matmul_kernel_skel
  unfold owns
  iintro ⟨⟨%f0, %hf0, H0⟩, ⟨%f1, %hf1, H1⟩, ⟨%f2, %hf2, H2⟩, Hk⟩
  obtain rfl := harg4.eq_unread hf0
  obtain rfl := harg5.eq_unread hf1
  obtain rfl := harg6.eq_unread hf2
  sl_exec (disch := first | exact hc1 | exact hc2)
  sl_step
  iapply Hk
  isplitl [H0]
  · iexists _; isplitr
    · ipureintro; exact harg4.read_unread _
    iexact H0
  isplitl [H1]
  · iexists _; isplitr
    · ipureintro; exact harg5.read_unread _
    iexact H1
  iexists _; isplitr
  swap; · iexact H2
  ipureintro
  rw [View.read_writes_eq_canon _ _ _ (fun y => ⟨_, List.mem_singleton_self _, View.mem_set_unit_zero hz3 inb_S1x2048x1024_S1x2048x1024_0_0_0 y⟩)]
  rw [View.canon_unit_zero hz3]
  simp only [View.readAt_eq_ld, harg4.read_unread, harg5.read_unread, harg6.read_unread, View.ld_unit_zero (S := S1x2048x1024) hz3, View.ld_unit_zero (S := S1x1024x1024) hz3]

end Cert.Kernel.Hand

end
-- ==== Proof.KbFrame.lean ====
/-
  The body obligation at every grid point, the run of the whole program, and the frame.

  At a point the pipeline hands the body the two input buffers at their blocks and the output buffer at what the
  point before left (or at anything, at the first contraction tile of an output tile); the body's two cases return
  them as the proof data say. The table of clipped ids and the rest of the invariant pass through untouched.
-/
import proofs.«401067_j34007551050174_3_alg».proof.Proof.Gen.Kernel.Launch
import proofs.«401067_j34007551050174_3_alg».proof.Proof.Gen.Kernel.Skeleton
import proofs.«401067_j34007551050174_3_alg».proof.Proof.KbData
import proofs.«401067_j34007551050174_3_alg».proof.Proof.KbBody
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin (cfgM m).N) : sProp 𝕄 :=
  iprop((dats m 0 c).Φ t.castSucc ∗ (dats m 0 c).owesAt () t.castSucc
    ∗ (∃ d, owns (c : Thread nD τ) (msx m t) fullShare ((dats m 0 c).before 0 t d))
    ∗ (∃ d, owns (c : Thread nD τ) (msw m t) fullShare ((dats m 0 c).before 1 t d))
    ∗ (∃ d, owns (c : Thread nD τ) (mso m t) fullShare ((dats m 0 c).before 2 t d)))

/-- and what it returns. -/
def bodyPost (c : Dev nD) (t : Fin (cfgM m).N) : sProp 𝕄 :=
  iprop((dats m 0 c).Φ t.succ ∗ (dats m 0 c).owesAt () t.succ
    ∗ owns (c : Thread nD τ) (msx m t) fullShare ((dats m 0 c).after 0 t)
    ∗ owns (c : Thread nD τ) (msw m t) fullShare ((dats m 0 c).after 1 t)
    ∗ owns (c : Thread nD τ) (mso m t) fullShare ((dats m 0 c).after 2 t))

set_option maxHeartbeats 800000 in
/-- The body at any point. -/
theorem sound_body (c : Dev nD) (t : Fin (cfgM m).N) :
    bodyPre m c t ⊢ wp frame (wpE (defs₀ (F := F)) Variants.none c none) Set.univ (bodyAt m t) (fun _ => bodyPost m c t) := by
  unfold bodyPre bodyPost bodyAt
  simp only [before_x', before_w']
  rw [show (dats m 0 c).Φ t.succ = (dats m 0 c).Φ t.castSucc from rfl,
    show (dats m 0 c).owesAt () t.succ = (dats m 0 c).owesAt () t.castSucc from rfl,
    after_x, after_w, after_out]
  by_cases h0 : t.val % 4 = 0
  · rw [accAt_reset m c t h0]
    iintro ⟨HΦ, Ho, ⟨%d0, H0⟩, ⟨%d1, H1⟩, ⟨%d2, H2⟩⟩
    iapply (run_reset c (grid0.coords t) _ _ _ _ _ _ _ _ ((hcond1 m t).mpr h0) (fun h => (hcond2 m t).mp h h0) (iblk m c 0 t) (iblk m c 1 t) Set.univ _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [accAt_acc m c t h0]
    simp only [before_out m c t h0]
    iintro ⟨HΦ, Ho, ⟨%d0, H0⟩, ⟨%d1, H1⟩, ⟨%d2, H2⟩⟩
    iapply (run_acc c (grid0.coords t) _ _ _ _ _ _ _ _ (fun h => h0 ((hcond1 m t).mp h)) ((hcond2 m t).mpr h0) (iblk m c 0 t) (iblk m c 1 t) _ Set.univ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The library's body obligation, at every point. -/
theorem body_obligation (c : Dev nD) : BodyObligation (dats (F := F) m 0 c) (defs₀ (F := F)) Variants.none () Set.univ := fun t => by
  rw [bigSep_W0, bigSep_W0]
  have hl : (cfgM m).idle (2 : Fin 3) ((cfgM m).grid.coords t) = false := out_live m _
  rw [hl]
  exact sound_body m c t

set_option backward.isDefEq.respectTransparency.types false in
/-- From any memory with zero counters every weakly fair execution of the program terminates, the pipeline's arrays
    ending at what the proof data compute and every other unscoped buffer as the region found it. -/
theorem run_main : θ_run defs (onTc (τ := τ) (main (F := F))) (s₀ m ρ) (Pipeline.FramePost (Pipeline.pin pcfgs fun _ => adm m) (dats m) 0 (V m)) :=
  Pipeline.θ_run_frameP pcfgs (fun _ => adm m) (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hpf := V_pre m)
    (hΦ := fun _ _ => rfl)

/-- The frame: the program runs to the end, faults nowhere, and leaves its three arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Hand

end
-- ==== Proof.KiKit.lean ====
/-
  The program up to its one region, and the table the region reads.

  Before the region the host clips the eight adapter ids into the table's sixteen rows: `min 15 (max 0 id)`,
  signed. Whatever the ids are, the clipped word is one of 0 … 15, so the block of the weight table the pipeline
  fetches at a grid point — (clipped id of the sample, output tile, contraction tile) — always lies inside the
  [16, 4096, 4096] table: the pipeline's side condition of the table holds for every launch memory.
-/
import proofs.«401067_j34007551050174_3_alg».proof.Proof.Gen.KernelIdeal.Launch
import proofs.«401067_j34007551050174_3_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- The buffers of core `c` when the region is entered: the launch contents with the two constants and the clipped ids written. -/
abbrev V (c : Dev nD) (b : Ref sig .tc) : Buf (Elt F) ((c : Thread nD τ).loc b) :=
  StableHlo.after (List.flatten [hostOps0, hostOps0_1]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor

/-- The program is the two stretches of host operations and then the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1] (by simp only [List.Forall]; exact ⟨hostOps0_sub, hostOps0_1_sub⟩)
    (by simp only [List.Forall]; exact ⟨hostOps0_fresh, hostOps0_1_fresh⟩) main_chain

/-- No host operation writes an argument array: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))

/-! ## The table of clipped ids -/

/-- The table's contents when the region is entered (the program runs on one device). -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl

/-- The ids clipped into the sixteen rows, as the host computes them. -/
def clipped (ids : IVec S8 32) : IVec S8 32 :=
  minsi (broadcastInDim S8 ![] bcast_S_S8 (constantI S_ 32 15#32)) (maxsi (broadcastInDim S8 ![] bcast_S_S8 (constantI S_ 32 0#32)) ids)

/-- The table holds the clipped ids. -/
theorem tbl_eq : (tbl m 0 : IVec S8 32) = clipped (m (((0 : Dev nD) : Thread nD τ).loc main_arg2)) := by
  unfold tbl clipped
  show V m 0 main_v0 = _
  dsimp only [V]
  simp only [hostOps0, hostOps0_1, List.flatten_cons, List.flatten_nil, List.append_nil, List.cons_append, List.nil_append]
  after_results
  rfl

/-- The clip always lands on one of the sixteen rows … -/
theorem clip_lt (v : BitVec 32) : (IntOp.minsi 15#32 (IntOp.maxsi 0#32 v)).toNat < 16 := by
  unfold IntOp.minsi IntOp.maxsi
  have h15 : (15#32 : BitVec 32).toInt = 15 := by decide
  have h0 : (0#32 : BitVec 32).toInt = 0 := by decide
  by_cases h1 : v.slt 0#32 = true
  · rw [if_pos h1]
    have : (15#32 : BitVec 32).slt 0#32 = false := by decide
    rw [this]; decide
  · rw [if_neg h1]
    by_cases h2 : (15#32 : BitVec 32).slt v = true
    · rw [if_pos h2]; decide
    · rw [if_neg h2]
      simp only [BitVec.slt, decide_eq_true_eq, h15, h0] at h1 h2
      have h32 := v.isLt
      unfold BitVec.toInt at h1 h2
      split at h1 <;> omega
/-- … and leaves an id that already is one of them alone. -/
theorem clip_id (v : BitVec 32) (h : v.toNat < 16) : IntOp.minsi 15#32 (IntOp.maxsi 0#32 v) = v := by
  unfold IntOp.minsi IntOp.maxsi
  have h15 : (15#32 : BitVec 32).toInt = 15 := by decide
  have h0 : (0#32 : BitVec 32).toInt = 0 := by decide
  have hv : v.toInt = v.toNat := by unfold BitVec.toInt; rw [if_pos (by omega)]
  have h1 : ¬ v.slt 0#32 = true := by simp only [BitVec.slt, decide_eq_true_eq, h0, hv]; omega
  rw [if_neg h1]
  have h2 : ¬ (15#32 : BitVec 32).slt v = true := by simp only [BitVec.slt, decide_eq_true_eq, h15, hv]; omega
  rw [if_neg h2]

/-- Every word of the table is one of the sixteen rows. -/
theorem tbl_lt (x : S8.Idx) : ((tbl m 0 : IVec S8 32) x).toNat < 16 := by
  rw [tbl_eq]; exact clip_lt _

/-- The pipeline's side condition of the table: the weight block fetched at any grid point lies inside the table. -/
theorem ok : ok0 (F := F) (tbl m) := by
  intro i
  obtain ⟨w, hw, e⟩ : ∃ w : BitVec 32, w.toNat < 16 ∧ cc0_transform_1 k0_off1_inb numel1_S1 (tbl m) i
      = ![w.toNat, (BitVec.ofNat 32 (i 1).val).toNat, (BitVec.ofNat 32 (i 2).val).toNat] := ⟨_, tbl_lt m _, rfl⟩
  refine ⟨fun a => ?_, Or.inl rfl⟩
  rw [e]
  have h1 : (i 1).val < 4 := (i 1).isLt
  have h2 : (i 2).val < 4 := (i 2).isLt
  fin_cases a <;> simp [S1x1024x1024, S16x4096x4096] <;> omega

/-- The table as admissible contents, and the pipeline at them. -/
abbrev adm : (pcfg0 (F := F)).Adm := ⟨tbl m, ok m⟩
abbrev cfgM : Pipeline.Cfg sig Λ₀ := cfg0 (adm m)

/-! ## The windows' blocks -/

/-- Window `w`'s block at point `t`, read off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- The sample tile's buffer holds its block at every point, fetched there or not (the body only reads it). -/
theorem before_x {c : Dev nD} (dat : Dat τ (Elt F) Unit ℕ (UR sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- So does the adapter tile's. -/
theorem before_w {c : Dev nD} (dat : Dat τ (Elt F) Unit ℕ (UR sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

theorem frame_of (dats : (p : Fin 1) → (c : Dev nD) → Dat τ (Elt F) Unit ℕ (UR sig nD τ) ℕ ((Pipeline.pin pcfgs fun _ => adm m) p) c)
    (hA : ∀ c w, (dats 0 c).A w = V m c (Pipeline.arrRef spec0 w))
    (h : θ_run defs (onTc (τ := τ) (main (F := F))) (s₀ m ρ) (Pipeline.FramePost (Pipeline.pin pcfgs fun _ => adm m) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (by decide : main_arg2 ∈ Pipeline.restRefs sig spec0)).trans (V_main_arg2 m c)⟩) h

/-! ## Where the body resets and where it accumulates -/

/-- The reset branch is taken exactly at the first contraction tile of an output tile … -/
theorem hcond1 : ∀ t : Fin (cfgM m).N, k0_cond1 (grid0.coords t) = 1#1 ↔ t.val % 4 = 0 :=
  (by decide +kernel : ∀ t : Fin grid0.N, k0_cond1 (grid0.coords t) = 1#1 ↔ t.val % 4 = 0)
/-- … and the accumulating branch at the other three. -/
theorem hcond2 : ∀ t : Fin (cfgM m).N, k0_cond2 (grid0.coords t) = 1#1 ↔ ¬ t.val % 4 = 0 :=
  (by decide +kernel : ∀ t : Fin grid0.N, k0_cond2 (grid0.coords t) = 1#1 ↔ ¬ t.val % 4 = 0)
/-- The output tile is written back after its fourth contraction tile only. -/
theorem flush_out (a : (pcfg0 (F := F)).Adm) : ∀ t : Fin (cfg0 a).N, ((cfg0 a).win 2).flush t = true ↔ t.val % 4 = 3 :=
  (by decide +kernel : ∀ t : Fin grid0.N, Pipeline.Window.flushOf grid0 true cc0_transform_2 t = true ↔ t.val % 4 = 3)

/-! ## The body as the pipeline calls it -/

abbrev msx (t : Fin (cfgM m).N) : Memref sig .tc .vmem S1x2048x1024 .f32 := spec0_0.stage ((cfgM m).slots t 0)
abbrev hsx (t : Fin (cfgM m).N) : (msx m t).IsWhole := hstage0_0 (((cfgM m).slots t 0).cast nbuf0_0)
abbrev msw (t : Fin (cfgM m).N) : Memref sig .tc .vmem S1x1024x1024 .f32 := spec0_1.stage ((cfgM m).slots t 1)
abbrev hsw (t : Fin (cfgM m).N) : (msw m t).IsWhole := hstage0_1 (((cfgM m).slots t 1).cast nbuf0_1)
abbrev mso (t : Fin (cfgM m).N) : Memref sig .tc .vmem S1x2048x1024 .f32 := spec0_2.stage ((cfgM m).slots t 2)
abbrev hso (t : Fin (cfgM m).N) : (mso m t).IsWhole := hstage0_2 (((cfgM m).slots t 2).cast nbuf0_2)

/-- The kernel body at point `t`, on what the pipeline calls it with. -/
abbrev bodyAt (t : Fin (cfgM m).N) : Prog (TpuEff nD τ sig (Elt F) Λ₀ .tc) PUnit :=
  cc0__lora_matmul_kernel (grid0.coords t) (Memref.whole main_v0) (Memref.isWhole_whole _) (msx m t) (hsx m t) (msw m t) (hsw m t) (mso m t) (hso m t)

end Cert.KernelIdeal.Hand

end
-- ==== Proof.KiData.lean ====
/-
  What each staging buffer holds after the body, point by point.

  The grid runs samples × output tiles × contraction tiles, the contraction tile fastest. The two input buffers hold
  their blocks. The output buffer is an accumulator: after the first contraction tile of an output tile it holds
  that tile's product, after each later one what it held before plus the new product; it is written back after the
  fourth.
-/
import proofs.«401067_j34007551050174_3_alg».proof.Proof.Gen.KernelIdeal.Launch
import proofs.«401067_j34007551050174_3_alg».proof.Proof.Gen.KernelIdeal.Skeleton
import proofs.«401067_j34007551050174_3_alg».proof.Proof.KiKit
import Idealize.ShloMosaic.Lib.ValueIdx
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The accumulator after position `n` of the grid. -/
def accAt (c : Dev nD) : (n : ℕ) → n < (cfgM m).N → Vec F S1x2048x1024 .f32
  | 0, hn => k0_pay2 (iblk m c 0 ⟨0, hn⟩) (iblk m c 1 ⟨0, hn⟩)
  | n + 1, hn =>
    if (n + 1) % 4 = 0 then k0_pay2 (iblk m c 0 ⟨n + 1, hn⟩) (iblk m c 1 ⟨n + 1, hn⟩)
    else k0_pay3 (iblk m c 0 ⟨n + 1, hn⟩) (iblk m c 1 ⟨n + 1, hn⟩) (accAt c n (Nat.lt_of_succ_lt hn))

/-- At the first contraction tile the accumulator is the tile product. -/
theorem accAt_reset (c : Dev nD) (t : Fin (cfgM m).N) (h0 : t.val % 4 = 0) :
    accAt m c t.val t.isLt = k0_pay2 (iblk m c 0 t) (iblk m c 1 t) := by
  obtain ⟨n, hn⟩ := t
  cases n with
  | zero => rfl
  | succ n => exact (if_pos h0).trans rfl

/-- At a later contraction tile it is what the point before left plus the tile product. -/
theorem accAt_acc (c : Dev nD) (t : Fin (cfgM m).N) (h0 : ¬t.val % 4 = 0) :
    accAt m c t.val t.isLt = k0_pay3 (iblk m c 0 t) (iblk m c 1 t) (accAt m c (t.val - 1) (Nat.lt_of_le_of_lt (Nat.sub_le _ _) t.isLt)) := by
  obtain ⟨n, hn⟩ := t
  cases n with
  | zero => exact absurd (Nat.zero_mod _) h0
  | succ n => exact (if_neg h0).trans rfl

/-- The pipeline's proof data on core `c`. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => accAt m c t.val t.isLt
  Φ _ := iprop(Pipeline.ΦA spec0 c ∗ Pipeline.ΦT pre0 (tbl m) c)
  q _ := fullShare
  owed _ := 0

theorem A_eq (c : Dev nD) (w : Fin (cfgM m).W) : (dats m 0 c).A w = V m c (Pipeline.arrRef spec0 w) := by
  dsimp only [dats]

theorem after_x (c : Dev nD) (t : Fin (cfgM m).N) : (dats m 0 c).after 0 t = iblk m c 0 t := by dsimp only [dats]; rfl
theorem after_w (c : Dev nD) (t : Fin (cfgM m).N) : (dats m 0 c).after 1 t = iblk m c 1 t := by dsimp only [dats]; rfl
theorem after_out (c : Dev nD) (t : Fin (cfgM m).N) : (dats m 0 c).after 2 t = accAt m c t.val t.isLt := by dsimp only [dats]; rfl

/-- The input buffers hold their blocks when the body runs. -/
theorem before_x' (c : Dev nD) (t : Fin (cfgM m).N) (d) : (dats m 0 c).before 0 t d = iblk m c 0 t :=
  before_x m (dats m 0 c) (A_eq m c 0) (after_x m c) t d
theorem before_w' (c : Dev nD) (t : Fin (cfgM m).N) (d) : (dats m 0 c).before 1 t d = iblk m c 1 t :=
  before_w m (dats m 0 c) (A_eq m c 1) (after_w m c) t d

/-- The body stores into the output buffer at every point: one of its two branches is taken. -/
theorem out_live (i : (cfgM m).grid.Coords) : (cfgM m).idle 2 i = false := by
  show (!(k0_cond1 i == 1#1) && !(k0_cond2 i == 1#1)) = false
  unfold k0_cond1 k0_cond2
  have h : ∀ k : Fin 4, (!(Scalar.cmpi .ne (Scalar.extui (Scalar.cmpi .eq (BitVec.ofNat 32 k.val) 0#32)) 0#32 == 1#1)
      && !(Scalar.cmpi .ne (Scalar.extui (Scalar.cmpi .ne (BitVec.ofNat 32 k.val) 0#32)) 0#32 == 1#1)) = false := by decide
  exact h (i 2)

/-- At a later contraction tile the output buffer holds what the point before left: it was not written back between. -/
theorem before_out (c : Dev nD) (t : Fin (cfgM m).N) (h0 : ¬t.val % 4 = 0) (d) :
    (dats m 0 c).before 2 t d = accAt m c (t.val - 1) (Nat.lt_of_le_of_lt (Nat.sub_le _ _) t.isLt) := by
  rw [Dat.before_out_kept _ 2 rfl t (by omega) (Bool.eq_false_iff.mpr fun h => by have := (flush_out (adm m) _).mp h; dsimp only at this; omega)
    (fun i => out_live m i) (fun _ _ => rfl)]
  dsimp only [dats]; rfl

/-! ## Names for the value of the result -/

/-- The adapter row the table names for sample `b`. -/
def krow (b : Fin 8) : Fin 16 := ⟨((tbl m 0 : IVec S8 32) (ValueIdx.ix1 b)).toNat, tbl_lt m _⟩

/-- The grid point of sample `b`, output tile `n`, contraction tile `kt`. -/
def pt (b : Fin 8) (n : Fin 4) (kt : Fin 4) : Fin (cfgM m).N :=
  ⟨(b.val * 4 + n.val) * 4 + kt.val, by
    have := b.isLt; have := n.isLt; have := kt.isLt
    show _ < grid0.N
    rw [N_0]; omega⟩

end Cert.KernelIdeal.Hand

end
-- ==== Proof.KiBody.lean ====
/-
  The kernel body run once on arbitrary staging buffers, in its two cases.

  At the first contraction tile of an output tile the body stores the tile product into the output buffer (whatever
  that buffer held); at the other three it loads the buffer, adds the tile product and stores the sum back. The two
  input buffers are only read.
-/
import proofs.«401067_j34007551050174_3_alg».proof.Proof.Gen.KernelIdeal.Launch
import proofs.«401067_j34007551050174_3_alg».proof.Proof.Gen.KernelIdeal.Skeleton
import proofs.«401067_j34007551050174_3_alg».proof.Proof.KiKit
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The offsets of a whole-block access are all zero. -/
theorem hz3 : (![0, 0, 0] : Fin 3 → Nat) = fun _ => 0 := by funext a; fin_cases a <;> rfl

/-- The first contraction tile: the output buffer ends at the tile product. -/
theorem run_reset (c : Dev nD) (i : grid0.Coords) (arg3 : Memref sig .tc .smem S8 .i32) (harg3 : arg3.IsWhole)
    (arg4 : Memref sig .tc .vmem S1x2048x1024 .f32) (harg4 : arg4.IsWhole) (arg5 : Memref sig .tc .vmem S1x1024x1024 .f32) (harg5 : arg5.IsWhole)
    (arg6 : Memref sig .tc .vmem S1x2048x1024 .f32) (harg6 : arg6.IsWhole)
    (hc1 : k0_cond1 i = 1#1) (hc2 : ¬ k0_cond2 i = 1#1) (x0 : Vec F S1x2048x1024 .f32) (x1 : Vec F S1x1024x1024 .f32)
    (E : Set ℕ) (K : PUnit → sProp 𝕄) :
    iprop(owns (c : Thread nD τ) arg4 fullShare x0 ∗ owns (c : Thread nD τ) arg5 fullShare x1 ∗ (∃ d, owns (c : Thread nD τ) arg6 fullShare d)
        ∗ (iprop(owns (c : Thread nD τ) arg4 fullShare x0 ∗ owns (c : Thread nD τ) arg5 fullShare x1
            ∗ owns (c : Thread nD τ) arg6 fullShare (k0_pay2 x0 x1)) -∗ K ⟨⟩))
      ⊢ wp frame (wpE (defs₀ (F := F)) Variants.none c none) E (cc0__lora_matmul_kernel i arg3 harg3 arg4 harg4 arg5 harg5 arg6 harg6) K := by
  simp only [cc0__lora_matmul_kernel_eq_skeleton]; unfold cc0__lora_matmul_kernel_skel
  unfold owns
  iintro ⟨⟨%f0, %hf0, H0⟩, ⟨%f1, %hf1, H1⟩, ⟨%d2, %f2, -, H2⟩, Hk⟩
  obtain rfl := harg4.eq_unread hf0
  obtain rfl := harg5.eq_unread hf1
  sl_exec (disch := first | exact hc1 | exact hc2)
  sl_step
  iapply Hk
  isplitl [H0]
  · iexists _; isplitr
    · ipureintro; exact harg4.read_unread _
    iexact H0
  isplitl [H1]
  · iexists _; isplitr
    · ipureintro; exact harg5.read_unread _
    iexact H1
  iexists _; isplitr
  swap; · iexact H2
  ipureintro
  rw [View.read_writes_eq_canon _ _ _ (fun y => ⟨_, List.mem_singleton_self _, View.mem_set_unit_zero hz3 inb_S1x2048x1024_S1x2048x1024_0_0_0 y⟩)]
  rw [View.canon_unit_zero hz3]
  simp only [View.readAt_eq_ld, harg4.read_unread, harg5.read_unread, View.ld_unit_zero (S := S1x2048x1024) hz3, View.ld_unit_zero (S := S1x1024x1024) hz3]

/-- A later contraction tile: the output buffer, found at `acc`, ends at `acc` plus the tile product. -/
theorem run_acc (c : Dev nD) (i : grid0.Coords) (arg3 : Memref sig .tc .smem S8 .i32) (harg3 : arg3.IsWhole)
    (arg4 : Memref sig .tc .vmem S1x2048x1024 .f32) (harg4 : arg4.IsWhole) (arg5 : Memref sig .tc .vmem S1x1024x1024 .f32) (harg5 : arg5.IsWhole)
    (arg6 : Memref sig .tc .vmem S1x2048x1024 .f32) (harg6 : arg6.IsWhole)
    (hc1 : ¬ k0_cond1 i = 1#1) (hc2 : k0_cond2 i = 1#1) (x0 : Vec F S1x2048x1024 .f32) (x1 : Vec F S1x1024x1024 .f32) (acc : Vec F S1x2048x1024 .f32)
    (E : Set ℕ) (K : PUnit → sProp 𝕄) :
    iprop(owns (c : Thread nD τ) arg4 fullShare x0 ∗ owns (c : Thread nD τ) arg5 fullShare x1 ∗ owns (c : Thread nD τ) arg6 fullShare acc
        ∗ (iprop(owns (c : Thread nD τ) arg4 fullShare x0 ∗ owns (c : Thread nD τ) arg5 fullShare x1
            ∗ owns (c : Thread nD τ) arg6 fullShare (k0_pay3 x0 x1 acc)) -∗ K ⟨⟩))
      ⊢ wp frame (wpE (defs₀ (F := F)) Variants.none c none) E (cc0__lora_matmul_kernel i arg3 harg3 arg4 harg4 arg5 harg5 arg6 harg6) K := by
  simp only [cc0__lora_matmul_kernel_eq_skeleton]; unfold cc0__lora_matmul_kernel_skel
  unfold owns
  iintro ⟨⟨%f0, %hf0, H0⟩, ⟨%f1, %hf1, H1⟩, ⟨%f2, %hf2, H2⟩, Hk⟩
  obtain rfl := harg4.eq_unread hf0
  obtain rfl := harg5.eq_unread hf1
  obtain rfl := harg6.eq_unread hf2
  sl_exec (disch := first | exact hc1 | exact hc2)
  sl_step
  iapply Hk
  isplitl [H0]
  · iexists _; isplitr
    · ipureintro; exact harg4.read_unread _
    iexact H0
  isplitl [H1]
  · iexists _; isplitr
    · ipureintro; exact harg5.read_unread _
    iexact H1
  iexists _; isplitr
  swap; · iexact H2
  ipureintro
  rw [View.read_writes_eq_canon _ _ _ (fun y => ⟨_, List.mem_singleton_self _, View.mem_set_unit_zero hz3 inb_S1x2048x1024_S1x2048x1024_0_0_0 y⟩)]
  rw [View.canon_unit_zero hz3]
  simp only [View.readAt_eq_ld, harg4.read_unread, harg5.read_unread, harg6.read_unread, View.ld_unit_zero (S := S1x2048x1024) hz3, View.ld_unit_zero (S := S1x1024x1024) hz3]

end Cert.KernelIdeal.Hand

end
-- ==== Proof.KiFrame.lean ====
/-
  The body obligation at every grid point, the run of the whole program, and the frame.

  At a point the pipeline hands the body the two input buffers at their blocks and the output buffer at what the
  point before left (or at anything, at the first contraction tile of an output tile); the body's two cases return
  them as the proof data say. The table of clipped ids and the rest of the invariant pass through untouched.
-/
import proofs.«401067_j34007551050174_3_alg».proof.Proof.Gen.KernelIdeal.Launch
import proofs.«401067_j34007551050174_3_alg».proof.Proof.Gen.KernelIdeal.Skeleton
import proofs.«401067_j34007551050174_3_alg».proof.Proof.KiData
import proofs.«401067_j34007551050174_3_alg».proof.Proof.KiBody
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin (cfgM m).N) : sProp 𝕄 :=
  iprop((dats m 0 c).Φ t.castSucc ∗ (dats m 0 c).owesAt () t.castSucc
    ∗ (∃ d, owns (c : Thread nD τ) (msx m t) fullShare ((dats m 0 c).before 0 t d))
    ∗ (∃ d, owns (c : Thread nD τ) (msw m t) fullShare ((dats m 0 c).before 1 t d))
    ∗ (∃ d, owns (c : Thread nD τ) (mso m t) fullShare ((dats m 0 c).before 2 t d)))

/-- and what it returns. -/
def bodyPost (c : Dev nD) (t : Fin (cfgM m).N) : sProp 𝕄 :=
  iprop((dats m 0 c).Φ t.succ ∗ (dats m 0 c).owesAt () t.succ
    ∗ owns (c : Thread nD τ) (msx m t) fullShare ((dats m 0 c).after 0 t)
    ∗ owns (c : Thread nD τ) (msw m t) fullShare ((dats m 0 c).after 1 t)
    ∗ owns (c : Thread nD τ) (mso m t) fullShare ((dats m 0 c).after 2 t))

set_option maxHeartbeats 800000 in
/-- The body at any point. -/
theorem sound_body (c : Dev nD) (t : Fin (cfgM m).N) :
    bodyPre m c t ⊢ wp frame (wpE (defs₀ (F := F)) Variants.none c none) Set.univ (bodyAt m t) (fun _ => bodyPost m c t) := by
  unfold bodyPre bodyPost bodyAt
  simp only [before_x', before_w']
  rw [show (dats m 0 c).Φ t.succ = (dats m 0 c).Φ t.castSucc from rfl,
    show (dats m 0 c).owesAt () t.succ = (dats m 0 c).owesAt () t.castSucc from rfl,
    after_x, after_w, after_out]
  by_cases h0 : t.val % 4 = 0
  · rw [accAt_reset m c t h0]
    iintro ⟨HΦ, Ho, ⟨%d0, H0⟩, ⟨%d1, H1⟩, ⟨%d2, H2⟩⟩
    iapply (run_reset c (grid0.coords t) _ _ _ _ _ _ _ _ ((hcond1 m t).mpr h0) (fun h => (hcond2 m t).mp h h0) (iblk m c 0 t) (iblk m c 1 t) Set.univ _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [accAt_acc m c t h0]
    simp only [before_out m c t h0]
    iintro ⟨HΦ, Ho, ⟨%d0, H0⟩, ⟨%d1, H1⟩, ⟨%d2, H2⟩⟩
    iapply (run_acc c (grid0.coords t) _ _ _ _ _ _ _ _ (fun h => h0 ((hcond1 m t).mp h)) ((hcond2 m t).mpr h0) (iblk m c 0 t) (iblk m c 1 t) _ Set.univ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The library's body obligation, at every point. -/
theorem body_obligation (c : Dev nD) : BodyObligation (dats (F := F) m 0 c) (defs₀ (F := F)) Variants.none () Set.univ := fun t => by
  rw [bigSep_W0, bigSep_W0]
  have hl : (cfgM m).idle (2 : Fin 3) ((cfgM m).grid.coords t) = false := out_live m _
  rw [hl]
  exact sound_body m c t

set_option backward.isDefEq.respectTransparency.types false in
/-- From any memory with zero counters every weakly fair execution of the program terminates, the pipeline's arrays
    ending at what the proof data compute and every other unscoped buffer as the region found it. -/
theorem run_main : θ_run defs (onTc (τ := τ) (main (F := F))) (s₀ m ρ) (Pipeline.FramePost (Pipeline.pin pcfgs fun _ => adm m) (dats m) 0 (V m)) :=
  Pipeline.θ_run_frameP pcfgs (fun _ => adm m) (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hpf := V_pre m)
    (hΦ := fun _ _ => rfl)

/-- The frame: the program runs to the end, faults nowhere, and leaves its three arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Hand

end
-- ==== Proof.Spec.lean ====
/-
  The mathematics both programs compute, with no program in sight.

  For each sample `b` an adapter matrix is chosen by an integer id, and the sample's rows are multiplied by that
  matrix's transpose: `out[b, s, o] = ∑ k, x[b, s, k] · w[row b, o, k]`. Over the extended reals the sum of 4096
  products may be taken in any grouping; the kernel groups it into four consecutive runs of 1024 and adds the runs
  one after the other, which is the same number because addition there is commutative and associative.
-/
import Idealize.ShloMosaic.Lib.ValueIdx

noncomputable section

open scoped BigOperators

namespace Cert.LoraSpec

open Idealize.ShloMosaic Idealize.ShloMosaic.ValueIdx

abbrev SX : Shape := ⟨3, ![8, 2048, 4096]⟩
abbrev SW : Shape := ⟨3, ![16, 4096, 4096]⟩
abbrev SI : Shape := ⟨1, ![8]⟩

/-- The adapter row an id word names: the word read as a natural number, folded into the table's sixteen rows
    (for an id in range, the id itself). -/
def row (ids : SI.Idx → BitVec 32) (b : Fin 8) : Fin 16 := ⟨(ids (ix1 b)).toNat % 16, Nat.mod_lt _ (by decide)⟩

/-- An id in range is its own row. -/
theorem row_val {ids : SI.Idx → BitVec 32} {b : Fin 8} (h : (ids (ix1 b)).toNat < 16) : (row ids b).val = (ids (ix1 b)).toNat :=
  Nat.mod_eq_of_lt h

/-- Every sample times the transpose of the adapter matrix `r` picks for it. -/
def G (x : SX.Idx → EReal) (w : SW.Idx → EReal) (r : Fin 8 → Fin 16) : SX.Idx → EReal :=
  fun i => ∑ k : Fin 4096, x (ix3 (n0 := 8) (n1 := 2048) (i 0) (i 1) k) * w (ix3 (n0 := 16) (n1 := 4096) (r (i 0)) (i 2) k)

/-- The result both programs are compared with: the adapter picked by the sample's id. -/
def Out (x : SX.Idx → EReal) (w : SW.Idx → EReal) (ids : SI.Idx → BitVec 32) : SX.Idx → EReal := G x w (row ids)

/-- Position `j` of run `kt` among the 4096 contracted positions. -/
def kpos (kt : Fin 4) (j : Fin 1024) : Fin 4096 := ⟨kt.val * 1024 + j.val, by have := kt.isLt; have := j.isLt; omega⟩

/-- A sum over the 4096 positions is the sum over the four runs of the sums inside each run. -/
theorem sum_runs {M : Type*} [AddCommMonoid M] (f : Fin 4096 → M) :
    ∑ k : Fin 4096, f k = ∑ kt : Fin 4, ∑ j : Fin 1024, f (kpos kt j) := by
  rw [← Fintype.sum_prod_type (f := fun p : Fin 4 × Fin 1024 => f (kpos p.1 p.2))]
  refine (Equiv.sum_comp (finProdFinEquiv (m := 4) (n := 1024)) f).symm.trans ?_
  refine Finset.sum_congr rfl fun p _ => congrArg f (Fin.ext ?_)
  show p.2.val + 1024 * p.1.val = p.1.val * 1024 + p.2.val
  omega

/-- Adding the four runs one after the other, starting from the first, is their sum. -/
theorem runs_in_order {M : Type*} [AddCommMonoid M] (P : Fin 4 → M) :
    ((P 0 + P 1) + P 2) + P 3 = ∑ kt : Fin 4, P kt := by
  rw [Fin.sum_univ_four]

end Cert.LoraSpec

end
-- ==== Proof.KiBlocks.lean ====
/-
  The two input windows' blocks, read off their arrays.

  The grid runs samples × output tiles × contraction tiles, row-major: point ((b·4 + n)·4 + kt) has coordinates
  (b, n, kt). A window's block at a point starts, on each axis, at block index × block size, and is read with unit
  stride, so element y of the block is the array's element at index × size + y.

  The sample window's index map sends (b, n, kt) to (b, 0, kt) and its block is [1, 2048, 1024]: element (0, s, k)
  of the block is element (b, s, kt·1024 + k) of the samples. The adapter window's index map sends (b, n, kt) to
  (the table's word for sample b, n, kt) and its block is [1, 1024, 1024]: element (0, j, k) of the block is element
  (that word, n·1024 + j, kt·1024 + k) of the adapter table. Everything about the pipeline's shape is stated with
  the table's contents a variable; the table enters only as the one word the index map reads.
-/
import proofs.«401067_j34007551050174_3_alg».proof.Proof.Gen.KernelIdeal.Launch
import proofs.«401067_j34007551050174_3_alg».proof.Proof.Gen.KernelIdeal.Skeleton
import proofs.«401067_j34007551050174_3_alg».proof.Proof.KiData
import proofs.«401067_j34007551050174_3_alg».proof.Proof.Spec
import Idealize.ShloMosaic.Lib.ValueIdx
import Idealize.ShloMosaic.Lib.Pipeline.Value
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

open Idealize.ShloMosaic.ValueIdx

/-! ## The grid and the index maps -/

/-- The coordinates of a grid point: sample, output tile, contraction tile, the last fastest. -/
theorem coords_val : ∀ t : Fin grid0.N, (grid0.coords t 0).val = t.val / 16 ∧ (grid0.coords t 1).val = t.val / 4 % 4 ∧ (grid0.coords t 2).val = t.val % 4 := by
  decide +kernel

/-- The sample window's block index is its index map at the point's coordinates, whatever the table holds. -/
theorem index_x (a : (pcfg0 (F := Ideal)).Adm) (t : Fin (cfg0 a).N) : ((cfg0 a).win 0).index t = cc0_transform_0 (grid0.coords t) := rfl
/-- So is the adapter window's, the map reading the table. -/
theorem index_w (a : (pcfg0 (F := Ideal)).Adm) (t : Fin (cfg0 a).N) :
    ((cfg0 a).win 1).index t = cc0_transform_1 k0_off1_inb numel1_S1 a.1 (grid0.coords t) := rfl

/-- The sample window's block read at `y` is the array at block index × block size + `y`, axis by axis. -/
theorem x_read (a : (pcfg0 (F := Ideal)).Adm) (f : S8x2048x4096.Idx → EReal) (t : Fin (cfg0 a).N) (y : S1x2048x1024.Idx) (i : S8x2048x4096.Idx)
    (hi : ∀ ax, (i ax).val = cc0_transform_0 (grid0.coords t) ax * S1x2048x1024.size ax + (y ax).val) :
    (((cfg0 a).win 0).blk t).view.read (Elt Ideal) f y = f i := by
  show f ((((cfg0 a).win 0).blk t).view.emb y) = f i
  congr 1
  refine funext fun (ax : Fin 3) => Fin.ext ?_
  show cc0_transform_0 (grid0.coords t) ax * S1x2048x1024.size ax + 1 * (y ax).val = (i ax).val
  rw [hi ax, Nat.one_mul]

/-- The adapter window's block read at `y` likewise. -/
theorem w_read (a : (pcfg0 (F := Ideal)).Adm) (f : S16x4096x4096.Idx → EReal) (t : Fin (cfg0 a).N) (y : S1x1024x1024.Idx) (i : S16x4096x4096.Idx)
    (hi : ∀ ax, (i ax).val = cc0_transform_1 k0_off1_inb numel1_S1 a.1 (grid0.coords t) ax * S1x1024x1024.size ax + (y ax).val) :
    (((cfg0 a).win 1).blk t).view.read (Elt Ideal) f y = f i := by
  show f ((((cfg0 a).win 1).blk t).view.emb y) = f i
  congr 1
  refine funext fun (ax : Fin 3) => Fin.ext ?_
  show cc0_transform_1 k0_off1_inb numel1_S1 a.1 (grid0.coords t) ax * S1x1024x1024.size ax + 1 * (y ax).val = (i ax).val
  rw [hi ax, Nat.one_mul]

/-- The word of the table the adapter window's index map reads at a point of sample `b` is the table's word `b`. -/
theorem transform_1_row (pf : pre0.Contents (Elt Ideal)) (i : grid0.Coords) (b : Fin 8) (hb : (i 0).val = b.val) :
    cc0_transform_1 k0_off1_inb numel1_S1 pf i 0 = ((pf 0 : IVec S8 32) (ix1 b)).toNat := by
  have e : (Rect.unit (s := S8) ![(Scalar.indexCast (BitVec.ofNat 32 (i 0).val)).toNat] S1.size (k0_off1_inb i)).emb
      (Shape.Idx.first (numel1_S1.symm ▸ Nat.one_pos)) = ix1 b := by
    refine funext fun (a : Fin 1) => Fin.ext ?_
    match a with
    | ⟨0, _⟩ =>
      show (BitVec.ofNat 32 (i 0).val).toNat + 1 * (0 : Nat) = b.val
      have := b.isLt
      rw [BitVec.toNat_ofNat, hb]; omega
  exact congrArg (fun x => ((pf 0 : IVec S8 32) x).toNat) e

/-! ## The blocks -/

/-- The sample tile at a grid point is the sample's rows at the contraction tile's positions. -/
theorem x_block (c : Dev nD) (b : Fin 8) (n kt : Fin 4) (s : Fin 2048) (k : Fin 1024) :
    (iblk m c 0 (pt m b n kt) : Vec Ideal S1x2048x1024 .f32) (ix3 (0 : Fin 1) s k) = (V m c main_arg0 : Vec Ideal S8x2048x4096 .f32) (ix3 b s (Cert.LoraSpec.kpos kt k)) := by
  unfold iblk
  refine x_read (adm m) (V m c main_arg0) (pt m b n kt) (ix3 (0 : Fin 1) s k) (ix3 b s (Cert.LoraSpec.kpos kt k)) (fun ax => ?_)
  obtain ⟨h0, h1, h2⟩ := coords_val (pt m b n kt)
  have ht : (pt m b n kt).val = (b.val * 4 + n.val) * 4 + kt.val := rfl
  have hb := b.isLt
  have hn := n.isLt
  have hk := kt.isLt
  match ax with
  | ⟨0, _⟩ =>
    show b.val = (BitVec.ofNat 32 (grid0.coords (pt m b n kt) 0).val).toNat * 1 + 0
    rw [BitVec.toNat_ofNat, h0, ht]; omega
  | ⟨1, _⟩ =>
    show s.val = 0 * 2048 + s.val
    omega
  | ⟨2, _⟩ =>
    show kt.val * 1024 + k.val = (BitVec.ofNat 32 (grid0.coords (pt m b n kt) 2).val).toNat * 1024 + k.val
    rw [BitVec.toNat_ofNat, h2, ht]; omega

/-- The adapter tile at a grid point is the named adapter's rows of the output tile at the contraction tile's positions. -/
theorem w_block (c : Dev nD) (b : Fin 8) (n kt : Fin 4) (j : Fin 1024) (k : Fin 1024) :
    (iblk m c 1 (pt m b n kt) : Vec Ideal S1x1024x1024 .f32) (ix3 (0 : Fin 1) j k) = (V m c main_arg1 : Vec Ideal S16x4096x4096 .f32) (ix3 (krow m b) (Cert.LoraSpec.kpos n j) (Cert.LoraSpec.kpos kt k)) := by
  unfold iblk
  refine w_read (adm m) (V m c main_arg1) (pt m b n kt) (ix3 (0 : Fin 1) j k) (ix3 (krow m b) (Cert.LoraSpec.kpos n j) (Cert.LoraSpec.kpos kt k)) (fun ax => ?_)
  obtain ⟨h0, h1, h2⟩ := coords_val (pt m b n kt)
  have ht : (pt m b n kt).val = (b.val * 4 + n.val) * 4 + kt.val := rfl
  have hb := b.isLt
  have hn := n.isLt
  have hk := kt.isLt
  match ax with
  | ⟨0, _⟩ =>
    have e := transform_1_row (tbl m) (grid0.coords (pt m b n kt)) b (by rw [h0, ht]; omega)
    show (krow m b).val = cc0_transform_1 k0_off1_inb numel1_S1 (tbl m) (grid0.coords (pt m b n kt)) 0 * 1 + 0
    rw [e, Nat.mul_one, Nat.add_zero]; rfl
  | ⟨1, _⟩ =>
    show n.val * 1024 + j.val = (BitVec.ofNat 32 (grid0.coords (pt m b n kt) 1).val).toNat * 1024 + j.val
    rw [BitVec.toNat_ofNat, h1, ht]; omega
  | ⟨2, _⟩ =>
    show kt.val * 1024 + k.val = (BitVec.ofNat 32 (grid0.coords (pt m b n kt) 2).val).toNat * 1024 + k.val
    rw [BitVec.toNat_ofNat, h2, ht]; omega

end Cert.KernelIdeal.Hand

end
-- ==== Proof.KiPayload.lean ====
import proofs.«401067_j34007551050174_3_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

/-!
  The kernel body's arithmetic read at an index, at the ideal values. One grid step multiplies a
  [2048 × 1024] sample tile by the transpose of a [1024 × 1024] adapter tile (both operands contract
  their second axis), into a zero accumulator: the element at (s, j) is the sum over k of sample (s, k)
  times adapter (j, k). The first contraction step stores that product; a later one adds it to the tile
  already accumulated. The casts between [1, a, b] and [a, b] only drop or add the unit coordinate, and
  the narrowing to bf16 is the identity on extended reals.
-/

noncomputable section

namespace Cert.KernelIdeal.Pay
open Cert.KernelIdeal Cert.KernelIdeal.Gen Idealize.ShloMosaic Idealize.ShloMosaic.ValueIdx

/-- One tile's product: row s of the sample tile against row j of the adapter tile. -/
def tileDot (v0 : Vec Ideal S1x2048x1024 .f32) (v3 : Vec Ideal S1x1024x1024 .f32) (s : Fin 2048) (j : Fin 1024) : EReal :=
  ∑ k : Fin 1024, v0 (ix3 (0 : Fin 1) s k) * v3 (ix3 (0 : Fin 1) j k)

/-! ## The operand indices of the contraction, axis by axis -/

/-- The left operand's row is the output's row. -/
theorem lhs_dot_S2048x1024_S1024x1024_S2048x1024_1_1_0_0_n_n_0 (i : S2048x1024.Idx) (q : dot_S2048x1024_S1024x1024_S2048x1024_1_1_0_0_n_n.contr.Idx) :
    (dot_S2048x1024_S1024x1024_S2048x1024_1_1_0_0_n_n.lhsIdx i q 0).val = (i 0).val := by
  unfold DotDims.lhsIdx
  rw [dif_neg (show ¬(0 : Fin S2048x1024.rank) ∈ dot_S2048x1024_S1024x1024_S2048x1024_1_1_0_0_n_n.lhsBatch by decide), dif_pos (show (0 : Fin S2048x1024.rank) ∈ dot_S2048x1024_S1024x1024_S2048x1024_1_1_0_0_n_n.lhsNonContracting by decide)]
  rfl
/-- The left operand's column is the contraction coordinate. -/
theorem lhs_dot_S2048x1024_S1024x1024_S2048x1024_1_1_0_0_n_n_1 (i : S2048x1024.Idx) (q : dot_S2048x1024_S1024x1024_S2048x1024_1_1_0_0_n_n.contr.Idx) :
    (dot_S2048x1024_S1024x1024_S2048x1024_1_1_0_0_n_n.lhsIdx i q 1).val = (q ⟨0, by decide⟩).val :=
  dot_S2048x1024_S1024x1024_S2048x1024_1_1_0_0_n_n.lhsIdx_val_of_single rfl i q
/-- The right operand's row is the output's column. -/
theorem rhs_dot_S2048x1024_S1024x1024_S2048x1024_1_1_0_0_n_n_0 (i : S2048x1024.Idx) (q : dot_S2048x1024_S1024x1024_S2048x1024_1_1_0_0_n_n.contr.Idx) :
    (dot_S2048x1024_S1024x1024_S2048x1024_1_1_0_0_n_n.rhsIdx i q 0).val = (i 1).val := by
  unfold DotDims.rhsIdx
  rw [dif_neg (show ¬(0 : Fin S1024x1024.rank) ∈ dot_S2048x1024_S1024x1024_S2048x1024_1_1_0_0_n_n.rhsBatch by decide), dif_pos (show (0 : Fin S1024x1024.rank) ∈ dot_S2048x1024_S1024x1024_S2048x1024_1_1_0_0_n_n.rhsNonContracting by decide)]
  rfl
/-- The right operand's column is the contraction coordinate. -/
theorem rhs_dot_S2048x1024_S1024x1024_S2048x1024_1_1_0_0_n_n_1 (i : S2048x1024.Idx) (q : dot_S2048x1024_S1024x1024_S2048x1024_1_1_0_0_n_n.contr.Idx) :
    (dot_S2048x1024_S1024x1024_S2048x1024_1_1_0_0_n_n.rhsIdx i q 1).val = (q ⟨0, by decide⟩).val :=
  dot_S2048x1024_S1024x1024_S2048x1024_1_1_0_0_n_n.rhsIdx_val_of_single rfl i q

/-! ## The payloads at an index -/

/-- The product tile at (s, j), before the cast back to [1, 2048, 1024]. -/
theorem pay1_apply (v0 : Vec Ideal S1x2048x1024 .f32) (v3 : Vec Ideal S1x1024x1024 .f32) (s : Fin 2048) (j : Fin 1024) :
    k0_pay1 (F := Ideal) v0 v3 (ix2 s j) = tileDot v0 v3 s j := by
  unfold k0_pay1 tileDot
  simp only [matmul]
  rw [Ideal.matmul_constant_zero_apply, ← Equiv.sum_comp (ValueIdx.contrEquiv1 dot_S2048x1024_S1024x1024_S2048x1024_1_1_0_0_n_n 1024 rfl rfl).symm]
  refine Finset.sum_congr rfl fun k _ => ?_
  have hk := ValueIdx.contrEquiv1_symm_val dot_S2048x1024_S1024x1024_S2048x1024_1_1_0_0_n_n 1024 rfl rfl k
  have el : dot_S2048x1024_S1024x1024_S2048x1024_1_1_0_0_n_n.lhsIdx (ix2 s j) ((ValueIdx.contrEquiv1 dot_S2048x1024_S1024x1024_S2048x1024_1_1_0_0_n_n 1024 rfl rfl).symm k) = ix2 s k := funext fun a => Fin.ext (by
    match a with
    | ⟨0, _⟩ => exact lhs_dot_S2048x1024_S1024x1024_S2048x1024_1_1_0_0_n_n_0 _ _
    | ⟨1, _⟩ => exact (lhs_dot_S2048x1024_S1024x1024_S2048x1024_1_1_0_0_n_n_1 _ _).trans hk)
  have er : dot_S2048x1024_S1024x1024_S2048x1024_1_1_0_0_n_n.rhsIdx (ix2 s j) ((ValueIdx.contrEquiv1 dot_S2048x1024_S1024x1024_S2048x1024_1_1_0_0_n_n 1024 rfl rfl).symm k) = ix2 j k := funext fun a => Fin.ext (by
    match a with
    | ⟨0, _⟩ => exact rhs_dot_S2048x1024_S1024x1024_S2048x1024_1_1_0_0_n_n_0 _ _
    | ⟨1, _⟩ => exact (rhs_dot_S2048x1024_S1024x1024_S2048x1024_1_1_0_0_n_n_1 _ _).trans hk)
  rw [el, er, truncf_apply, truncf_apply, shapeCast_1ab_ab_apply, shapeCast_1ab_ab_apply]

theorem pay2_apply (v0 : Vec Ideal S1x2048x1024 .f32) (v3 : Vec Ideal S1x1024x1024 .f32) (s : Fin 2048) (j : Fin 1024) :
    k0_pay2 (F := Ideal) v0 v3 (ix3 (0 : Fin 1) s j) = tileDot v0 v3 s j := by
  unfold k0_pay2
  rw [shapeCast_ab_1ab_apply, pay1_apply]

theorem pay3_apply (v0 : Vec Ideal S1x2048x1024 .f32) (v3 : Vec Ideal S1x1024x1024 .f32) (v13 : Vec Ideal S1x2048x1024 .f32) (s : Fin 2048) (j : Fin 1024) :
    k0_pay3 (F := Ideal) v0 v3 v13 (ix3 (0 : Fin 1) s j) = v13 (ix3 (0 : Fin 1) s j) + tileDot v0 v3 s j := by
  unfold k0_pay3
  rw [shapeCast_ab_1ab_apply, addf_apply, shapeCast_1ab_ab_apply, pay1_apply]

end Cert.KernelIdeal.Pay

end
-- ==== Proof.KiValue.lean ====
/-
  The kernel's result array.

  For sample `b` and output tile `n` the four grid points of the contraction tiles are consecutive. After the fourth
  the accumulator holds, at row `s` and column `j` of the tile, the four tile products added in order; each tile
  product is the run of 1024 consecutive terms of the contraction that its tile covers, so the four together are the
  whole sum over the 4096 positions: the entry (b, s, 1024·n + j) of every sample times the transpose of its adapter.
  That point is the only one that writes output block (b, 0, n) back, and the 32 blocks tile the array.
-/
import proofs.«401067_j34007551050174_3_alg».proof.Proof.Gen.KernelIdeal.Launch
import proofs.«401067_j34007551050174_3_alg».proof.Proof.Gen.KernelIdeal.Skeleton
import proofs.«401067_j34007551050174_3_alg».proof.Proof.KiData
import proofs.«401067_j34007551050174_3_alg».proof.Proof.KiBlocks
import proofs.«401067_j34007551050174_3_alg».proof.Proof.KiPayload
import proofs.«401067_j34007551050174_3_alg».proof.Proof.Spec
import Idealize.ShloMosaic.Lib.ValueIdx
import Idealize.ShloMosaic.Lib.Pipeline.Value
import Idealize.ShloMosaic.Lib.Pipeline.FrameBody
import Idealize.ShloMosaic.Lib.Ring
import Idealize.ShloMosaic.Lib.Tactic

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

open Idealize.ShloMosaic.ValueIdx

/-- The product of the sample tile and the adapter tile at the point of sample `b`, output tile `n`, contraction tile `kt`. -/
def outTile (c : Dev nD) (b : Fin 8) (n kt : Fin 4) (s : Fin 2048) (j : Fin 1024) : EReal :=
  Cert.KernelIdeal.Pay.tileDot (iblk m c 0 (pt m b n kt)) (iblk m c 1 (pt m b n kt)) s j

/-- The accumulator depends on the position only. -/
theorem out_accAt_congr (c : Dev nD) {n n' : ℕ} (e : n = n') (h : n < (cfgM m).N) (h' : n' < (cfgM m).N) :
    accAt m c n h = accAt m c n' h' := by
  subst e; rfl

/-- After the first contraction tile the accumulator holds that tile's product. -/
theorem out_acc_first (c : Dev nD) (b : Fin 8) (n : Fin 4) (s : Fin 2048) (j : Fin 1024) :
    (accAt m c (pt m b n 0).val (pt m b n 0).isLt : Vec Ideal S1x2048x1024 .f32) (ix3 (0 : Fin 1) s j) = outTile m c b n 0 s j := by
  have h0 : (pt m b n 0).val % 4 = 0 := by
    show ((b.val * 4 + n.val) * 4 + (0 : Fin 4).val) % 4 = 0
    have : ((0 : Fin 4).val) = 0 := rfl
    omega
  refine (congrFun (accAt_reset m c (pt m b n 0) h0) (ix3 (0 : Fin 1) s j)).trans ?_
  exact Cert.KernelIdeal.Pay.pay2_apply _ _ s j

/-- The samples as the region finds them. -/
abbrev out_xarr (c : Dev nD) : Vec Ideal S8x2048x4096 .f32 := V m c main_arg0
/-- The adapter table as the region finds it. -/
abbrev out_warr (c : Dev nD) : Vec Ideal S16x4096x4096 .f32 := V m c main_arg1

/-- After a later contraction tile it holds what the tile before left plus the new tile's product. -/
theorem out_acc_step (c : Dev nD) (b : Fin 8) (n : Fin 4) (kt kt' : Fin 4) (hk : kt'.val + 1 = kt.val) (s : Fin 2048) (j : Fin 1024) :
    (accAt m c (pt m b n kt).val (pt m b n kt).isLt : Vec Ideal S1x2048x1024 .f32) (ix3 (0 : Fin 1) s j)
      = (accAt m c (pt m b n kt').val (pt m b n kt').isLt : Vec Ideal S1x2048x1024 .f32) (ix3 (0 : Fin 1) s j) + outTile m c b n kt s j := by
  have hv : (pt m b n kt).val = (b.val * 4 + n.val) * 4 + kt.val := rfl
  have hv' : (pt m b n kt').val = (b.val * 4 + n.val) * 4 + kt'.val := rfl
  have h0 : ¬(pt m b n kt).val % 4 = 0 := by
    have := kt.isLt
    omega
  refine (congrFun (accAt_acc m c (pt m b n kt) h0) (ix3 (0 : Fin 1) s j)).trans ?_
  refine (Cert.KernelIdeal.Pay.pay3_apply _ _ _ s j).trans ?_
  rw [out_accAt_congr m c (show (pt m b n kt).val - 1 = (pt m b n kt').val by omega) _ (pt m b n kt').isLt]
  rfl

/-- After the fourth contraction tile the accumulator holds the four tile products added in order. -/
theorem out_acc_last (c : Dev nD) (b : Fin 8) (n : Fin 4) (s : Fin 2048) (j : Fin 1024) :
    (accAt m c (pt m b n 3).val (pt m b n 3).isLt : Vec Ideal S1x2048x1024 .f32) (ix3 (0 : Fin 1) s j)
      = ((outTile m c b n 0 s j + outTile m c b n 1 s j) + outTile m c b n 2 s j) + outTile m c b n 3 s j := by
  rw [out_acc_step m c b n 3 2 rfl, out_acc_step m c b n 2 1 rfl, out_acc_step m c b n 1 0 rfl, out_acc_first]

/-- One tile product is the run of the contraction its tile covers. -/
theorem outTile_eq (c : Dev nD) (b : Fin 8) (n kt : Fin 4) (s : Fin 2048) (j : Fin 1024) :
    outTile m c b n kt s j = ∑ k : Fin 1024,
      out_xarr m c (ix3 b s (Cert.LoraSpec.kpos kt k)) * out_warr m c (ix3 (krow m b) (Cert.LoraSpec.kpos n j) (Cert.LoraSpec.kpos kt k)) := by
  unfold outTile Cert.KernelIdeal.Pay.tileDot
  refine Finset.sum_congr rfl fun k _ => ?_
  rw [x_block m c b n kt s k, w_block m c b n kt j k]

/-- After the fourth contraction tile the accumulator holds the tile of the result. -/
theorem out_acc_final (c : Dev nD) (b : Fin 8) (n : Fin 4) (s : Fin 2048) (j : Fin 1024) :
    (accAt m c (pt m b n 3).val (pt m b n 3).isLt : Vec Ideal S1x2048x1024 .f32) (ix3 (0 : Fin 1) s j)
      = Cert.LoraSpec.G (out_xarr m c) (out_warr m c) (krow m) (ix3 b s (Cert.LoraSpec.kpos n j)) := by
  rw [out_acc_last, Cert.LoraSpec.runs_in_order (fun kt => outTile m c b n kt s j)]
  unfold Cert.LoraSpec.G
  rw [Cert.LoraSpec.sum_runs]
  refine Finset.sum_congr rfl fun kt _ => ?_
  exact outTile_eq m c b n kt s j

/-- The output's index map over the grid: point `t` has block (sample, 0, output tile) = (t / 16, 0, t / 4 % 4). -/
theorem out_index (a : (pcfg0 (F := Ideal)).Adm) : ∀ t : Fin (cfg0 a).N,
    ((cfg0 a).win 2).index t (0 : Fin 3) = t.val / 16 ∧ ((cfg0 a).win 2).index t (1 : Fin 3) = 0
      ∧ ((cfg0 a).win 2).index t (2 : Fin 3) = t.val / 4 % 4 :=
  (by decide +kernel : ∀ t : Fin grid0.N, cc0_transform_2 (grid0.coords t) (0 : Fin 3) = t.val / 16
    ∧ cc0_transform_2 (grid0.coords t) (1 : Fin 3) = 0 ∧ cc0_transform_2 (grid0.coords t) (2 : Fin 3) = t.val / 4 % 4)

/-- What a point writes back is its block of the result: the point is the fourth contraction tile of a sample and an
    output tile, and entry (0, s, j) of its block is entry (b, s, 1024·n + j) of the array. -/
theorem out_flushed_eq (c : Dev nD) (t : Fin (cfgM m).N) (hf : ((cfgM m).win 2).flush t = true) :
    (dats m 0 c).flushed 2 t = (((cfgM m).win 2).blk t).view.read (Elt Ideal) (Cert.LoraSpec.G (out_xarr m c) (out_warr m c) (krow m)) := by
  have h3 : t.val % 4 = 3 := (flush_out (adm m) t).mp hf
  have hN : t.val < 128 := by
    have h := t.isLt
    have e : (cfgM m).N = 128 := N_0
    omega
  obtain ⟨b, n, rfl⟩ : ∃ (b : Fin 8) (n : Fin 4), t = pt m b n 3 :=
    ⟨⟨t.val / 16, by omega⟩, ⟨t.val / 4 % 4, by omega⟩, Fin.ext (by
      show t.val = (t.val / 16 * 4 + t.val / 4 % 4) * 4 + 3
      omega)⟩
  show ((cfgM m).win 2).cut ((cfgM m).grid.coords (pt m b n 3)) ((dats m 0 c).after 2 (pt m b n 3)) = _
  rw [after_out]
  funext y
  revert y
  show ∀ y : S1x2048x1024.Idx,
    (accAt m c (pt m b n 3).val (pt m b n 3).isLt : Vec Ideal S1x2048x1024 .f32) y
      = Cert.LoraSpec.G (out_xarr m c) (out_warr m c) (krow m) ((((cfgM m).win 2).blk (pt m b n 3)).view.emb y)
  intro y
  obtain ⟨u, s, j, rfl⟩ : ∃ (u : Fin 1) (s : Fin 2048) (j : Fin 1024), y = ix3 u s j := ⟨y 0, y 1, y 2, eq_ix3 y⟩
  obtain rfl : u = 0 := Subsingleton.elim _ _
  rw [out_acc_final]
  obtain ⟨e0, e1, e2⟩ := out_index (adm m) (pt m b n 3)
  have hv : (pt m b n 3).val = (b.val * 4 + n.val) * 4 + 3 := rfl
  have hb := b.isLt
  have hn := n.isLt
  refine congrArg (Cert.LoraSpec.G (out_xarr m c) (out_warr m c) (krow m)) (funext fun a => Fin.ext ?_)
  match a with
  | ⟨0, _⟩ =>
    show b.val = ((cfgM m).win 2).index (pt m b n 3) (0 : Fin 3) * 1 + 1 * 0
    rw [e0]; omega
  | ⟨1, _⟩ =>
    show s.val = ((cfgM m).win 2).index (pt m b n 3) (1 : Fin 3) * 2048 + 1 * s.val
    rw [e1]; omega
  | ⟨2, _⟩ =>
    show n.val * 1024 + j.val = ((cfgM m).win 2).index (pt m b n 3) (2 : Fin 3) * 1024 + 1 * j.val
    rw [e2]; omega

/-- An index of the result array is in point `t`'s output block iff each coordinate is in the block's range on its axis. -/
theorem out_mem_blk (t : Fin (cfgM m).N) (i : S8x2048x4096.Idx) :
    i ∈ (((cfgM m).win 2).blk t).view.set ↔ ∀ a : Fin 3, ((cfgM m).win 2).index t a * S1x2048x1024.size a ≤ (i a).val
      ∧ (i a).val < ((cfgM m).win 2).index t a * S1x2048x1024.size a + S1x2048x1024.size a := by
  show i ∈ ((View.whole main_v1).slice (((cfgM m).win 2).rect t)).set ↔ _
  exact (iff_of_eq (congrArg (fun S => i ∈ S) (View.set_slice_whole main_v1 (((cfgM m).win 2).rect t)))).trans
    Rect.mem_set_unit

/-- The 32 output blocks tile the result array: index (b, s, o) lies in the block written back after the last contraction
    tile of sample `b`, output tile `o / 1024`. -/
theorem out_cover (i : S8x2048x4096.Idx) :
    ∃ t : Fin (cfgM m).N, ((cfgM m).win 2).flush t = true ∧ i ∈ (((cfgM m).win 2).blk t).view.set := by
  have h0 : (i 0).val < 8 := (i 0).isLt
  have h1 : (i 1).val < 2048 := (i 1).isLt
  have h2 : (i 2).val < 4096 := (i 2).isLt
  have hv : (pt m ⟨(i 0).val, h0⟩ ⟨(i 2).val / 1024, by omega⟩ 3).val = ((i 0).val * 4 + (i 2).val / 1024) * 4 + 3 := rfl
  refine ⟨pt m ⟨(i 0).val, h0⟩ ⟨(i 2).val / 1024, by omega⟩ 3, (flush_out (adm m) _).mpr (by rw [hv]; omega), ?_⟩
  rw [out_mem_blk]
  obtain ⟨e0, e1, e2⟩ := out_index (adm m) (pt m ⟨(i 0).val, h0⟩ ⟨(i 2).val / 1024, by omega⟩ 3)
  intro a
  match a with
  | ⟨0, _⟩ =>
    show ((cfgM m).win 2).index (pt m ⟨(i 0).val, h0⟩ ⟨(i 2).val / 1024, by omega⟩ 3) (0 : Fin 3) * 1 ≤ (i 0).val
      ∧ (i 0).val < ((cfgM m).win 2).index (pt m ⟨(i 0).val, h0⟩ ⟨(i 2).val / 1024, by omega⟩ 3) (0 : Fin 3) * 1 + 1
    rw [e0, hv]; omega
  | ⟨1, _⟩ =>
    show ((cfgM m).win 2).index (pt m ⟨(i 0).val, h0⟩ ⟨(i 2).val / 1024, by omega⟩ 3) (1 : Fin 3) * 2048 ≤ (i 1).val
      ∧ (i 1).val < ((cfgM m).win 2).index (pt m ⟨(i 0).val, h0⟩ ⟨(i 2).val / 1024, by omega⟩ 3) (1 : Fin 3) * 2048 + 2048
    rw [e1]; omega
  | ⟨2, _⟩ =>
    show ((cfgM m).win 2).index (pt m ⟨(i 0).val, h0⟩ ⟨(i 2).val / 1024, by omega⟩ 3) (2 : Fin 3) * 1024 ≤ (i 2).val
      ∧ (i 2).val < ((cfgM m).win 2).index (pt m ⟨(i 0).val, h0⟩ ⟨(i 2).val / 1024, by omega⟩ 3) (2 : Fin 3) * 1024 + 1024
    rw [e2, hv]; omega

/-- After the last grid point the result array holds every sample times the transpose of the adapter its table word names. -/
theorem out_final (c : Dev nD) :
    (dats m 0 c).arrAt 2 (cfgM m).N = Cert.LoraSpec.G (V m c main_arg0) (V m c main_arg1) (krow m) :=
  (dats m 0 c).arrAt_eq_of_cover 2 (Cert.LoraSpec.G (out_xarr m c) (out_warr m c) (krow m)) (fun t hf => out_flushed_eq m c t hf)
    (fun i => out_cover m i)

end Cert.KernelIdeal.Hand

end
-- ==== Proof.KiOut.lean ====
/-
  The idealized kernel's run with its result named.

  With every id in range the clip before the region changes nothing, so the table word of sample `b` is the id of
  sample `b`; the result array, which the pipeline leaves at every sample times the transpose of the adapter its
  table word names, is then the specification's `Out` of the three argument arrays.
-/
import proofs.«401067_j34007551050174_3_alg».proof.Proof.Gen.KernelIdeal.Launch
import proofs.«401067_j34007551050174_3_alg».proof.Proof.Gen.KernelIdeal.Skeleton
import proofs.«401067_j34007551050174_3_alg».proof.Proof.KiFrame
import proofs.«401067_j34007551050174_3_alg».proof.Proof.KiValue
import proofs.«401067_j34007551050174_3_alg».proof.Proof.Spec
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

open Idealize.ShloMosaic.ValueIdx

/-- With the ids in range, the row the table names for a sample is the row its id names. -/
theorem krow_eq (h : ∀ b : Fin 8, ((m (((0 : Dev nD) : Thread nD τ).loc main_arg2) : IVec S8 32) (ix1 b)).toNat < 16) :
    krow m = Cert.LoraSpec.row (m (((0 : Dev nD) : Thread nD τ).loc main_arg2)) := by
  funext b
  refine Fin.ext ?_
  rw [Cert.LoraSpec.row_val (h b)]
  show ((tbl m 0 : IVec S8 32) (ix1 b)).toNat = _
  rw [tbl_eq]
  exact congrArg BitVec.toNat (clip_id _ (h b))

/-- The run of the idealized kernel: the result array ends at `Out` of the arguments, which end unchanged. -/
theorem run_out (h : ∀ (c : Dev nD) (b : Fin 8), ((m ((c : Thread nD τ).loc main_arg2) : IVec S8 32) (ix1 b)).toNat < 16) :
    θ_run defs (onTc (τ := τ) (main (F := Ideal))) ⟨m, fun _ => 0, ρ⟩ (fun r => ∀ c : Dev nD,
      r.2.mem ((c.tc : Thread nD τ).loc main_v1)
        = Cert.LoraSpec.Out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ hr c => by
    obtain rfl : c = 0 := Subsingleton.elim _ _
    refine ⟨?_, ((hr 0).1 0).trans (((dats m 0 0).arrAt_in 0 rfl _).trans ((A_eq m 0 0).trans (V_main_arg0 m 0))),
      ((hr 0).1 1).trans (((dats m 0 0).arrAt_in 1 rfl _).trans ((A_eq m 0 1).trans (V_main_arg1 m 0))),
      ((hr 0).2 main_arg2 (by decide : main_arg2 ∈ Pipeline.restRefs sig spec0)).trans (V_main_arg2 m 0)⟩
    refine ((hr 0).1 2).trans ((out_final m 0).trans ?_)
    unfold Cert.LoraSpec.Out
    rw [krow_eq m (h 0), V_main_arg0, V_main_arg1]) (run_main m ρ)

end Cert.KernelIdeal.Hand

end
-- ==== Proof.RefSide.lean ====
import proofs.«401067_j34007551050174_3_alg».proof.Proof.Gen.ReferenceIdeal.Read
import proofs.«401067_j34007551050174_3_alg».proof.Proof.Spec
import Idealize.ShloMosaic.Lib.ValueIdx
import Idealize.ShloMosaic.Lib.StableHlo.Predicate

noncomputable section

open scoped BigOperators

namespace Cert.LoraRef

open Cert.ReferenceIdeal Cert.ReferenceIdeal.Gen Idealize.ShloMosaic Idealize.ShloMosaic.ValueIdx

/-! ## The gather read at an index

The table `[16, 4096, 4096]` is gathered at an `[8, 1]` column of start indices: operand axis 0 is collapsed and is the
one axis the start index names, axes 1 and 2 are whole-axis offsets. Result element `(b, o, k)` is therefore the table
at `(start b, o, k)`, the start index of row `b` read as a signed integer and clamped into `[0, 15]`. -/

/-- The gather's dimension numbers. -/
abbrev refGather : GatherDims S16x4096x4096 S8x1 S8x4096x4096 := gather_S16x4096x4096_S8x1_S8x4096x4096_12_0_n_n_0_1_140964096

/-- Row `b` of the `[8, 1]` column of start indices. -/
abbrev refCol (b : Fin 8) : S8x1.Idx := fun a => match a with | ⟨0, _⟩ => b | ⟨1, _⟩ => (0 : Fin 1)

/-- Operand axis 1 is not named by the start index: its slice starts at 0. -/
theorem refGather_start_1 {w : Nat} (j : S8x4096x4096.Idx) (idx : IVec S8x1 w) : refGather.start j idx 1 = 0 := by
  unfold GatherDims.start
  rw [dif_neg (show ¬(1 : Fin 3) ∈ refGather.startIndexMap by decide)]

/-- Nor is operand axis 2. -/
theorem refGather_start_2 {w : Nat} (j : S8x4096x4096.Idx) (idx : IVec S8x1 w) : refGather.start j idx 2 = 0 := by
  unfold GatherDims.start
  rw [dif_neg (show ¬(2 : Fin 3) ∈ refGather.startIndexMap by decide)]

/-- Operand axis 1 is the first kept axis: it reads the result's first offset axis, axis 1. -/
theorem refGather_off_1 (j : S8x4096x4096.Idx) : refGather.offCoord j 1 = (j 1).val := by
  unfold GatherDims.offCoord
  rw [dif_pos (show (1 : Fin 3) ∈ refGather.sKept by decide)]
  rfl

/-- Operand axis 2 is the second kept axis: it reads the result's second offset axis, axis 2. -/
theorem refGather_off_2 (j : S8x4096x4096.Idx) : refGather.offCoord j 2 = (j 2).val := by
  unfold GatherDims.offCoord
  rw [dif_pos (show (2 : Fin 3) ∈ refGather.sKept by decide)]
  rfl

/-- On operand axis 0 the slice starts at row `b`'s start index, read signed and clamped into `[0, 16 - 1]`. -/
theorem refGather_start_0 {w : Nat} (idx : IVec S8x1 w) (b : Fin 8) (o k : Fin 4096) :
    refGather.start (ix3 b o k) idx 0 = min (idx (refCol b)).toInt.toNat 15 := by
  unfold GatherDims.start
  rw [dif_pos (show (0 : Fin 3) ∈ refGather.startIndexMap from List.mem_singleton.mpr rfl)]
  have hsi : refGather.siIdx (ix3 b o k) ⟨List.idxOf (0 : Fin 3) refGather.startIndexMap,
      List.idxOf_lt_length_iff.2 (List.mem_singleton.mpr rfl)⟩ = refCol b := by
    funext c; refine Fin.ext ?_
    match c with
    | ⟨0, _⟩ => rfl
    | ⟨1, _⟩ => rfl
  rw [hsi]
  rfl

/-- The gather at `(b, o, k)`: the table at `(start b, o, k)`. -/
theorem refGather_apply {α : Type} {w : Nat} (x1 : S16x4096x4096.Idx → α) (idx : IVec S8x1 w) (b : Fin 8) (o k : Fin 4096) :
    Host.gather gather_S16x4096x4096_S8x1_S8x4096x4096_12_0_n_n_0_1_140964096 x1 idx (ix3 b o k)
      = x1 (ix3 (n0 := 16) ⟨min (idx (refCol b)).toInt.toNat 15, by omega⟩ o k) := by
  unfold Host.gather
  congr 1
  funext a
  refine Fin.ext ?_
  match a with
  | ⟨0, _⟩ =>
    show refGather.start (ix3 b o k) idx 0 + refGather.batchCoord (ix3 b o k) 0 + refGather.offCoord (ix3 b o k) 0 = _
    rw [GatherDims.batchCoord_eq_zero _ _ _ List.not_mem_nil,
      GatherDims.offCoord_eq_zero _ _ _ (fun h => ((GatherDims.mem_sKept _ _).mp h).1 (List.mem_singleton.mpr rfl)),
      refGather_start_0]
    rfl
  | ⟨1, _⟩ =>
    show refGather.start (ix3 b o k) idx 1 + refGather.batchCoord (ix3 b o k) 1 + refGather.offCoord (ix3 b o k) 1 = o.val
    rw [GatherDims.batchCoord_eq_zero _ _ _ List.not_mem_nil, refGather_start_1, refGather_off_1]
    exact Nat.zero_add _
  | ⟨2, _⟩ =>
    show refGather.start (ix3 b o k) idx 2 + refGather.batchCoord (ix3 b o k) 2 + refGather.offCoord (ix3 b o k) 2 = k.val
    rw [GatherDims.batchCoord_eq_zero _ _ _ List.not_mem_nil, refGather_start_2, refGather_off_2]
    exact Nat.zero_add _

/-! ## The start indices

An id below 16 is non-negative as a signed word, so the normalisation `select (id <s 0) (id + 16) id` keeps it, and the
column of start indices holds the id itself. -/

/-- With the id of sample `b` in range, row `b` of the start-index column is that id. -/
theorem ref_ids_apply (x2 : (⟨S8, .i32⟩ : BufTy).Contents (Elt Ideal)) (b : Fin 8) (h : (x2 (ix1 b)).toNat < 16) :
    Read.val_main_v5 (F := Ideal) x2 (refCol b) = x2 (ix1 b) := by
  have e : Read.idx_main_v5 (refCol b) = ix1 b := by
    funext a; match a with | ⟨0, _⟩ => rfl
  rw [Read.val_main_v5_apply, e, Read.val_main_v4_apply, Read.val_main_v1_apply, Read.val_main_v0_apply,
    Read.val_main_c_apply]
  have hc : IntOp.cmpi .slt (x2 (ix1 b)) 0#32 = 0#1 := eq_zero_of_ne_one fun h1 => by
    have h2 := (StableHlo.Predicate.slt_iff_toNat (a := x2 (ix1 b)) (b := 0#32) (by omega) (by decide)).mp h1
    exact Nat.not_lt_zero _ h2
  rw [hc, select_zero]

/-- With every id in range, the gathered element `(b, o, k)` is the table at the row the id names. -/
theorem ref_v6_apply (x1 : (⟨S16x4096x4096, .f32⟩ : BufTy).Contents (Elt Ideal)) (x2 : (⟨S8, .i32⟩ : BufTy).Contents (Elt Ideal))
    (h : ∀ b : Fin 8, (x2 (ix1 b)).toNat < 16) (b : Fin 8) (o k : Fin 4096) :
    Read.val_main_v6 (F := Ideal) x1 x2 (ix3 b o k) = x1 (ix3 (n0 := 16) (LoraSpec.row x2 b) o k) := by
  unfold Read.val_main_v6
  rw [refGather_apply]
  refine congrArg (fun r : Fin 16 => x1 (ix3 (n0 := 16) r o k)) (Fin.ext ?_)
  show min (Read.val_main_v5 (F := Ideal) x2 (refCol b)).toInt.toNat 15 = (LoraSpec.row x2 b).val
  have hb := h b
  rw [ref_ids_apply x2 b hb, LoraSpec.row_val hb, StableHlo.Predicate.toInt_eq_toNat_of_lt (by omega), Int.toNat_natCast]
  exact Nat.min_eq_left (by omega)

/-- With every id in range, the reference's result is every sample times the transpose of the adapter its id names. -/
theorem ref_out (x0 : (⟨S8x2048x4096, .f32⟩ : BufTy).Contents (Elt Ideal)) (x1 : (⟨S16x4096x4096, .f32⟩ : BufTy).Contents (Elt Ideal))
    (x2 : (⟨S8, .i32⟩ : BufTy).Contents (Elt Ideal)) (h : ∀ b : Fin 8, (x2 (ix1 b)).toNat < 16) :
    Cert.ReferenceIdeal.Read.val_main_v7 (F := Ideal) x0 x1 x2 = Cert.LoraSpec.Out x0 x1 x2 := by
  funext i
  obtain ⟨p, q, r, rfl⟩ : ∃ (p : Fin 8) (q : Fin 2048) (r : Fin 4096), i = ix3 p q r := ⟨i 0, i 1, i 2, eq_ix3 i⟩
  rw [Read.val_main_v7_apply]
  unfold LoraSpec.Out LoraSpec.G
  refine Finset.sum_congr rfl fun k _ => ?_
  have el : Read.lidx_main_v7 (ix3 p q r) k = ix3 p q k := by
    funext a; refine Fin.ext ?_
    match a with
    | ⟨0, _⟩ => rfl
    | ⟨1, _⟩ => rfl
    | ⟨2, _⟩ => rfl
  have er : Read.ridx_main_v7 (ix3 p q r) k = ix3 p r k := by
    funext a; refine Fin.ext ?_
    match a with
    | ⟨0, _⟩ => rfl
    | ⟨1, _⟩ => rfl
    | ⟨2, _⟩ => rfl
  rw [el, er, ref_v6_apply x1 x2 h]

end Cert.LoraRef

end
-- ==== Proof.PreIds.lean ====
import proofs.«401067_j34007551050174_3_alg».proof.Pre_finite_inputs
import Idealize.ShloMosaic.Lib.ValueIdx
import Idealize.ShloMosaic.Lib.ReduceAll

/-!
  The integer half of the precondition, read back. The precondition is the conjunction of four `all`
  reductions; the last two say that every entry of the id vector is, as a signed 32-bit word, at least 0
  and less than 16. Where the conjunction is 1, each entry therefore has a value below 16.
-/

namespace Cert.LoraPre
open Idealize.ShloMosaic Idealize.ShloMosaic.ValueIdx Cert.Pre_finite_inputs
variable {F : FTy → Type} [FloatOps F] [Cert.Pre_finite_inputs.Facts]

/-- A signed 32-bit word between 0 and 16 has an unsigned value below 16. -/
private theorem toNat_lt_of_toInt {a : BitVec 32} (h0 : 0 ≤ a.toInt) (h1 : a.toInt < 16) : a.toNat < 16 := by
  rw [BitVec.toInt_eq_toNat_cond] at h0 h1
  have := a.isLt
  split at h0 <;> omega

/-- Where the precondition holds, every adapter id is one of the sixteen rows. -/
theorem ids_lt (x : FVec F S8x2048x4096 .f32) (w : FVec F S16x4096x4096 .f32) (ids : IVec S8 32)
    (h : Cert.Pre_finite_inputs.fn (F := F) x w ids = fun _ => 1#1) : ∀ b : Fin 8, (ids (ix1 b)).toNat < 16 := by
  intro b
  -- the rank-0 result has one index
  haveI : Subsingleton S_.Idx := ⟨fun a b => funext fun d => d.elim0⟩
  have h0 := congrFun h ix0
  dsimp only [Cert.Pre_finite_inputs.fn, Cert.Pre_finite_inputs.fn_part1] at h0
  -- the conjunction of the four reductions: keep the third and the fourth
  obtain ⟨h12, h15⟩ := IntOp.andi_eq_one.1 h0
  obtain ⟨-, h11⟩ := IntOp.andi_eq_one.1 h12
  -- each `all` is 1, so each compared element is 1
  have hge := Host.reduce_andi_all _ _ _ _ ix0 h11 (ix1 b)
  have hlt := Host.reduce_andi_all _ _ _ _ ix0 h15 (ix1 b)
  -- the element of a compare against a broadcast scalar constant is the word compare against the constant
  have hge' : (0#32 : BitVec 32).toInt ≤ (ids (ix1 b)).toInt := IntOp.cmpi_sge.1 hge
  have hlt' : (ids (ix1 b)).toInt < (16#32 : BitVec 32).toInt := IntOp.cmpi_slt.1 hlt
  exact toNat_lt_of_toInt hge' hlt'

end Cert.LoraPre
-- ==== Proof.lean ====
/-
  The certificate of a batched adapter product: out[b] = x[b] · w[id b]ᵀ, the adapter matrix of each sample picked by an
  integer id, computed by a kernel that walks a grid of samples × output tiles × contraction tiles, fetches the
  adapter's tile through a table of ids clipped on the host, and accumulates the four contraction tiles of an
  output tile in its output buffer; against a gather of the adapter matrices followed by one batched contraction.

  The statement is taken under one added domain condition: every id is one of the table's sixteen rows
  (0 ≤ id < 16). Outside it the two programs read different rows for a negative id (the reference wraps it, the
  kernel clips it).

  Frames: the kernel's two programs run to the end at every launch memory — the clipped table always names rows of
  the weight table, so the pipeline's blocks lie inside their arrays whatever the ids are; the reference is a straight
  line of host operations. The idealization rewrote nothing. Values: the kernel's result array holds, block by block,
  the four tile products added in order, which over the extended reals is the whole contraction (addition there is
  commutative and associative: no finiteness is used); the reference's gather at an id in range reads that id's rows.
-/
import proofs.«401067_j34007551050174_3_alg».proof.Defs
import proofs.«401067_j34007551050174_3_alg».proof.Proof.Gen.Kernel
import proofs.«401067_j34007551050174_3_alg».proof.Proof.Gen.Kernel.Skeleton
import proofs.«401067_j34007551050174_3_alg».proof.Proof.Gen.Kernel.Launch
import proofs.«401067_j34007551050174_3_alg».proof.Proof.Gen.Kernel.Flash
import proofs.«401067_j34007551050174_3_alg».proof.Proof.Gen.KernelIdeal
import proofs.«401067_j34007551050174_3_alg».proof.Proof.Gen.KernelIdeal.Skeleton
import proofs.«401067_j34007551050174_3_alg».proof.Proof.Gen.KernelIdeal.Launch
import proofs.«401067_j34007551050174_3_alg».proof.Proof.Gen.KernelIdeal.Flash
import proofs.«401067_j34007551050174_3_alg».proof.Proof.Gen.ReferenceIdeal
import proofs.«401067_j34007551050174_3_alg».proof.Proof.Gen.ReferenceIdeal.Run
import proofs.«401067_j34007551050174_3_alg».proof.Proof.Gen.ReferenceIdeal.Read
import proofs.«401067_j34007551050174_3_alg».proof.Proof.Gen.Pre_finite_inputs
import proofs.«401067_j34007551050174_3_alg».proof.Proof.KbFrame
import proofs.«401067_j34007551050174_3_alg».proof.Proof.KiOut
import proofs.«401067_j34007551050174_3_alg».proof.Proof.RefSide
import proofs.«401067_j34007551050174_3_alg».proof.Proof.PreIds
import Idealize.ShloMosaic.Adequacy
import Idealize.ShloMosaic.Init

noncomputable section

namespace Cert.Proof

open Idealize.ShloMosaic Idealize.SL.Sem

/-- The word-level kernel runs to the end and leaves its arguments alone. -/
theorem frame_kernel : Cert.frame_Kernel := fun m ρ _ => Cert.Kernel.Hand.frame m ρ

/-- So does the idealized kernel. -/
theorem frame_kernelIdeal : Cert.frame_KernelIdeal := fun m ρ _ => Cert.KernelIdeal.Hand.frame m ρ

/-- The reference is a straight line of host operations: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- With the ids in range both programs end at every sample times the transpose of the adapter its id names. -/
theorem algebraic : Cert.algebraic_KernelIdeal_ReferenceIdeal := by
  intro m ρ m' ρ' hpre hagree
  have hids : ∀ (c : Dev Cert.KernelIdeal.nD) (b : Fin 8),
      ((m ((c.tc : Thread Cert.KernelIdeal.nD Cert.KernelIdeal.τ).loc Cert.KernelIdeal.main_arg2) : IVec Cert.KernelIdeal.S8 32) (ValueIdx.ix1 b)).toNat < 16 :=
    fun c => Cert.LoraPre.ids_lt _ _ _ (hpre c)
  refine ⟨_, Cert.KernelIdeal.Hand.run_out m ρ hids, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v7_eq _ _ _).trans (Cert.LoraRef.ref_out _ _ _ (hids c))

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
